-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x3 : Shape := ⟨3, ![128, 8192, 3]⟩
abbrev S1x27x3 : Shape := ⟨3, ![1, 27, 3]⟩
abbrev S_ : Shape := ⟨0, ![]⟩

class Facts : Prop where
  bcast_S_S128x8192x3 : S_.BroadcastsInDim S128x8192x3 (![] : Fin 0 → Fin S128x8192x3.rank)
  reducesTo_S128x8192x3_S_d0_1_2 : S128x8192x3.ReducesTo [0, 1, 2] S_
  h_S_ : 0 < S_.numel
  bcast_S_S1x27x3 : S_.BroadcastsInDim S1x27x3 (![] : Fin 0 → Fin S1x27x3.rank)
  reducesTo_S1x27x3_S_d0_1_2 : S1x27x3.ReducesTo [0, 1, 2] S_

variable [Facts]

def fn {F : FTy → Type} [FloatOps F] (main_arg0 : FVec F S128x8192x3 .f32) (main_arg1 : FVec F S1x27x3 .f32) : IVec S_ 1 :=
  let main_v0 : FVec F S128x8192x3 .f32 := Host.absf main_arg0
  let main_cst : FVec F S_ .f32 := constant S_ .f32 0x7F800000#32
  let main_v1 : FVec F S128x8192x3 .f32 := broadcastInDim S128x8192x3 ![] bcast_S_S128x8192x3 main_cst
  let main_v2 : IVec S128x8192x3 1 := cmpf .olt main_v0 main_v1
  let main_c : IVec S_ 1 := constantI S_ 1 1#1
  let main_v3 : IVec S_ 1 := (fun x v => Host.reduce IntOp.andi x v reducesTo_S128x8192x3_S_d0_1_2 h_S_) main_v2 main_c
  let main_v4 : FVec F S1x27x3 .f32 := Host.absf main_arg1
  let main_cst_0 : FVec F S_ .f32 := constant S_ .f32 0x7F800000#32
  let main_v5 : FVec F S1x27x3 .f32 := broadcastInDim S1x27x3 ![] bcast_S_S1x27x3 main_cst_0
  let main_v6 : IVec S1x27x3 1 := cmpf .olt main_v4 main_v5
  let main_c_1 : IVec S_ 1 := constantI S_ 1 1#1
  let main_v7 : IVec S_ 1 := (fun x v => Host.reduce IntOp.andi x v reducesTo_S1x27x3_S_d0_1_2 h_S_) main_v6 main_c_1
  let main_v8 : IVec S_ 1 := andi main_v3 main_v7
  main_v8
-- ==== Kernel.lean ====
abbrev S128x8192x3 : Shape := ⟨3, ![128, 8192, 3]⟩
abbrev S1x27x3 : Shape := ⟨3, ![1, 27, 3]⟩
abbrev S128x27x8192 : Shape := ⟨3, ![128, 27, 8192]⟩
abbrev S1x8192x3 : Shape := ⟨3, ![1, 8192, 3]⟩
abbrev S1x27x8192 : Shape := ⟨3, ![1, 27, 8192]⟩
abbrev S8192x3 : Shape := ⟨2, ![8192, 3]⟩
abbrev S27x3 : Shape := ⟨2, ![27, 3]⟩
abbrev S8192 : Shape := ⟨1, ![8192]⟩
abbrev S27 : Shape := ⟨1, ![27]⟩
abbrev S27x1x3 : Shape := ⟨3, ![27, 1, 3]⟩
abbrev S27x8192x3 : Shape := ⟨3, ![27, 8192, 3]⟩
abbrev S27x8192 : Shape := ⟨2, ![27, 8192]⟩
abbrev S1x8192 : Shape := ⟨2, ![1, 8192]⟩
abbrev S27x1 : Shape := ⟨2, ![27, 1]⟩
abbrev S_ : Shape := ⟨0, ![]⟩
abbrev S128x27 : Shape := ⟨2, ![128, 27]⟩
abbrev S128x27x1 : Shape := ⟨3, ![128, 27, 1]⟩
abbrev S128x27x512 : Shape := ⟨3, ![128, 27, 512]⟩
abbrev S128 : Shape := ⟨1, ![128]⟩
abbrev S128x1x1 : Shape := ⟨3, ![128, 1, 1]⟩
abbrev S1x27x1 : Shape := ⟨3, ![1, 27, 1]⟩
abbrev S1x1x8192 : Shape := ⟨3, ![1, 1, 8192]⟩
abbrev S128x27x8192x1 : Shape := ⟨4, ![128, 27, 8192, 1]⟩
abbrev S128x27x8192x3 : Shape := ⟨4, ![128, 27, 8192, 3]⟩
abbrev S128x27x3 : Shape := ⟨3, ![128, 27, 3]⟩
abbrev S128x1x8192x3 : Shape := ⟨4, ![128, 1, 8192, 3]⟩
abbrev S128x27x512x1 : Shape := ⟨4, ![128, 27, 512, 1]⟩
abbrev S1 : Shape := ⟨1, ![1]⟩
abbrev S1x1x1x1 : Shape := ⟨4, ![1, 1, 1, 1]⟩
abbrev S128x27x512x3 : Shape := ⟨4, ![128, 27, 512, 3]⟩
abbrev S128x27x1x3 : Shape := ⟨4, ![128, 27, 1, 3]⟩
abbrev S3456x512x3 : Shape := ⟨3, ![3456, 512, 3]⟩

abbrev nBuf : Space → Nat
  | .hbm => 88
  | .vmem => 5
  | .smem => 0
  | _ => 0

abbrev bufTy : (tb : Table) → Fin (tcTables nBuf tb) → BufTy
  | .hbm, ⟨0, _⟩ => ⟨S128x8192x3, .f32⟩
  | .hbm, ⟨1, _⟩ => ⟨S1x27x3, .f32⟩
  | .hbm, ⟨2, _⟩ => ⟨S128x27x8192, .i32⟩
  | .hbm, ⟨3, _⟩ => ⟨S_, .i32⟩
  | .hbm, ⟨4, _⟩ => ⟨S128x27x8192, .i32⟩
  | .hbm, ⟨5, _⟩ => ⟨S128x27x8192, .i1⟩
  | .hbm, ⟨6, _⟩ => ⟨S_, .i32⟩
  | .hbm, ⟨7, _⟩ => ⟨S_, .i32⟩
  | .hbm, ⟨8, _⟩ => ⟨S128x27x8192, .i32⟩
  | .hbm, ⟨9, _⟩ => ⟨S_, .i32⟩
  | .hbm, ⟨10, _⟩ => ⟨S128x27x8192, .i32⟩
  | .hbm, ⟨11, _⟩ => ⟨S128x27x8192, .i32⟩
  | .hbm, ⟨12, _⟩ => ⟨S_, .i32⟩
  | .hbm, ⟨13, _⟩ => ⟨S_, .i32⟩
  | .hbm, ⟨14, _⟩ => ⟨S128x27x8192, .i32⟩
  | .hbm, ⟨15, _⟩ => ⟨S128x27x8192, .i32⟩
  | .hbm, ⟨16, _⟩ => ⟨S128x27x8192, .i32⟩
  | .hbm, ⟨17, _⟩ => ⟨S_, .i1⟩
  | .hbm, ⟨18, _⟩ => ⟨S_, .i32⟩
  | .hbm, ⟨19, _⟩ => ⟨S128x27, .i1⟩
  | .hbm, ⟨20, _⟩ => ⟨S128x27, .i32⟩
  | .hbm, ⟨21, _⟩ => ⟨S128x27x1, .i32⟩
  | .hbm, ⟨22, _⟩ => ⟨S128x27x512, .i32⟩
  | .hbm, ⟨23, _⟩ => ⟨S128, .i32⟩
  | .hbm, ⟨24, _⟩ => ⟨S128x1x1, .i32⟩
  | .hbm, ⟨25, _⟩ => ⟨S27, .i32⟩
  | .hbm, ⟨26, _⟩ => ⟨S1x27x1, .i32⟩
  | .hbm, ⟨27, _⟩ => ⟨S8192, .i32⟩
  | .hbm, ⟨28, _⟩ => ⟨S1x1x8192, .i32⟩
  | .hbm, ⟨29, _⟩ => ⟨S128x27x8192, .i32⟩
  | .hbm, ⟨30, _⟩ => ⟨S_, .i32⟩
  | .hbm, ⟨31, _⟩ => ⟨S128x1x1, .i32⟩
  | .hbm, ⟨32, _⟩ => ⟨S128x1x1, .i1⟩
  | .hbm, ⟨33, _⟩ => ⟨S_, .i32⟩
  | .hbm, ⟨34, _⟩ => ⟨S128x1x1, .i32⟩
  | .hbm, ⟨35, _⟩ => ⟨S128x1x1, .i32⟩
  | .hbm, ⟨36, _⟩ => ⟨S128x1x1, .i32⟩
  | .hbm, ⟨37, _⟩ => ⟨S_, .i32⟩
  | .hbm, ⟨38, _⟩ => ⟨S1x27x1, .i32⟩
  | .hbm, ⟨39, _⟩ => ⟨S1x27x1, .i1⟩
  | .hbm, ⟨40, _⟩ => ⟨S_, .i32⟩
  | .hbm, ⟨41, _⟩ => ⟨S1x27x1, .i32⟩
  | .hbm, ⟨42, _⟩ => ⟨S1x27x1, .i32⟩
  | .hbm, ⟨43, _⟩ => ⟨S1x27x1, .i32⟩
  | .hbm, ⟨44, _⟩ => ⟨S_, .i32⟩
  | .hbm, ⟨45, _⟩ => ⟨S128x27x8192, .i32⟩
  | .hbm, ⟨46, _⟩ => ⟨S128x27x8192, .i1⟩
  | .hbm, ⟨47, _⟩ => ⟨S_, .i32⟩
  | .hbm, ⟨48, _⟩ => ⟨S128x27x8192, .i32⟩
  | .hbm, ⟨49, _⟩ => ⟨S128x27x8192, .i32⟩
  | .hbm, ⟨50, _⟩ => ⟨S128x27x8192, .i32⟩
  | .hbm, ⟨51, _⟩ => ⟨S128x27x8192, .i32⟩
  | .hbm, ⟨52, _⟩ => ⟨S128x27x8192, .i32⟩
  | .hbm, ⟨53, _⟩ => ⟨S128x27x8192x1, .i32⟩
  | .hbm, ⟨54, _⟩ => ⟨S128x27x8192x1, .i32⟩
  | .hbm, ⟨55, _⟩ => ⟨S128x27x8192x1, .i32⟩
  | .hbm, ⟨56, _⟩ => ⟨S128x27x8192x3, .i32⟩
  | .hbm, ⟨57, _⟩ => ⟨S128x27x512, .i32⟩
  | .hbm, ⟨58, _⟩ => ⟨S128x27x3, .f32⟩
  | .hbm, ⟨59, _⟩ => ⟨S128x1x8192x3, .f32⟩
  | .hbm, ⟨60, _⟩ => ⟨S128x27x512x1, .i32⟩
  | .hbm, ⟨61, _⟩ => ⟨S_, .i32⟩
  | .hbm, ⟨62, _⟩ => ⟨S128x27x512x1, .i32⟩
  | .hbm, ⟨63, _⟩ => ⟨S128x27x512x1, .i1⟩
  | .hbm, ⟨64, _⟩ => ⟨S_, .i32⟩
  | .hbm, ⟨65, _⟩ => ⟨S128x27x512x1, .i32⟩
  | .hbm, ⟨66, _⟩ => ⟨S128x27x512x1, .i32⟩
  | .hbm, ⟨67, _⟩ => ⟨S128x27x512x1, .i32⟩
  | .hbm, ⟨68, _⟩ => ⟨S128x8192x3, .f32⟩
  | .hbm, ⟨69, _⟩ => ⟨S1, .i32⟩
  | .hbm, ⟨70, _⟩ => ⟨S_, .i32⟩
  | .hbm, ⟨71, _⟩ => ⟨S128x27x512x1, .i32⟩
  | .hbm, ⟨72, _⟩ => ⟨S128x27x512x1, .i1⟩
  | .hbm, ⟨73, _⟩ => ⟨S1x1x1x1, .i32⟩
  | .hbm, ⟨74, _⟩ => ⟨S128x27x512x1, .i32⟩
  | .hbm, ⟨75, _⟩ => ⟨S128x27x512x1, .i1⟩
  | .hbm, ⟨76, _⟩ => ⟨S128x27x512x1, .i1⟩
  | .hbm, ⟨77, _⟩ => ⟨S_, .i1⟩
  | .hbm, ⟨78, _⟩ => ⟨S128x27x512, .i1⟩
  | .hbm, ⟨79, _⟩ => ⟨S128x27x512x3, .f32⟩
  | .hbm, ⟨80, _⟩ => ⟨S128x27x512x3, .i1⟩
  | .hbm, ⟨81, _⟩ => ⟨S_, .f32⟩
  | .hbm, ⟨82, _⟩ => ⟨S128x27x512x3, .f32⟩
  | .hbm, ⟨83, _⟩ => ⟨S128x27x512x3, .f32⟩
  | .hbm, ⟨84, _⟩ => ⟨S128x27x1x3, .f32⟩
  | .hbm, ⟨85, _⟩ => ⟨S128x27x512x3, .f32⟩
  | .hbm, ⟨86, _⟩ => ⟨S128x27x512x3, .f32⟩
  | .hbm, ⟨87, _⟩ => ⟨S3456x512x3, .f32⟩
  | .local _ .vmem, ⟨0, _⟩ => ⟨S1x8192x3, .f32⟩
  | .local _ .vmem, ⟨1, _⟩ => ⟨S1x8192x3, .f32⟩
  | .local _ .vmem, ⟨2, _⟩ => ⟨S1x27x3, .f32⟩
  | .local _ .vmem, ⟨3, _⟩ => ⟨S1x27x8192, .i32⟩
  | .local _ .vmem, ⟨4, _⟩ => ⟨S1x27x8192, .i32⟩
  | _, _ => ⟨S128x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_call2_v0 : Ref sig .tc := ⟨.hbm, 16, rfl⟩
abbrev main_call2_c : Ref sig .tc := ⟨.hbm, 17, rfl⟩
abbrev main_call2_c_0 : Ref sig .tc := ⟨.hbm, 18, rfl⟩
abbrev main_call2_v1_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_c_1 : Ref sig .tc := ⟨.hbm, 69, rfl⟩
abbrev main_call3_c_2 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_3 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_call3_cst : Ref sig .tc := ⟨.hbm, 81, rfl⟩
abbrev main_call3_v15 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x27x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x27x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  inb_S1x27x3_S1x27x3_0_0_0 : ∀ a, (![0, 0, 0] : Fin 3 → Nat) a + S1x27x3.size a ≤ S1x27x3.size a
  h_S1x27x3 : 0 < S1x27x3.numel
  shapeCasts_S1x27x3_S27x3 : S1x27x3.ShapeCasts S27x3
  reduces_S8192x3_S8192 : S8192x3.Reduces [1] S8192
  reduces_S27x3_S27 : S27x3.Reduces [1] S27
  shapeCasts_S27x3_S27x1x3 : S27x3.ShapeCasts S27x1x3
  shapeCasts_S8192x3_S1x8192x3 : S8192x3.ShapeCasts S1x8192x3
  broadcasts_S27x1x3_S27x8192x3 : S27x1x3.Broadcasts S27x8192x3
  broadcasts_S1x8192x3_S27x8192x3 : S1x8192x3.Broadcasts S27x8192x3
  reduces_S27x8192x3_S27x8192 : S27x8192x3.Reduces [2] S27x8192
  shapeCasts_S8192_S1x8192 : S8192.ShapeCasts S1x8192
  shapeCasts_S27_S27x1 : S27.ShapeCasts S27x1
  broadcasts_S1x8192_S27x8192 : S1x8192.Broadcasts S27x8192
  broadcasts_S27x1_S27x8192 : S27x1.Broadcasts S27x8192
  natLt_1_32 : 1 < 32
  inb_S1x27x8192_S1x27x8192_0_0_0 : ∀ a, (![0, 0, 0] : Fin 3 → Nat) a + S1x27x8192.size a ≤ S1x27x8192.size a
  h_S1x27x8192 : 0 < S1x27x8192.numel
  shapeCasts_S1x27x8192_S27x8192 : S1x27x8192.ShapeCasts S27x8192
  shapeCasts_S27x8192_S1x27x8192 : S27x8192.ShapeCasts S1x27x8192
  bcast_S_S128x27x8192 : S_.BroadcastsInDim S128x27x8192 (![] : Fin 0 → Fin S128x27x8192.rank)
  bcast_S_S_ : S_.BroadcastsInDim S_ (![] : Fin 0 → Fin S_.rank)
  reduceWindows_S128x27x8192_S128x27x8192_w1s1p0_0_w1s1p0_0_w8192s1p8191_0 : S128x27x8192.ReduceWindows (![1, 1, 8192] : Fin 3 → Nat) ![1, 1, 1] ![0, 0, 8191] ![0, 0, 0] S128x27x8192
  h_S_ : 0 < S_.numel
  reducesTo_S128x27x8192_S128x27_d2 : S128x27x8192.ReducesTo [2] S128x27
  bcast_S128x27_S128x27x1_0_1 : S128x27.BroadcastsInDim S128x27x1 (![0, 1] : Fin 2 → Fin S128x27x1.rank)
  bcast_S128x27x1_S128x27x512_0_1_2 : S128x27x1.BroadcastsInDim S128x27x512 (![0, 1, 2] : Fin 3 → Fin S128x27x512.rank)
  bcast_S128_S128x1x1_0 : S128.BroadcastsInDim S128x1x1 (![0] : Fin 1 → Fin S128x1x1.rank)
  bcast_S27_S1x27x1_1 : S27.BroadcastsInDim S1x27x1 (![1] : Fin 1 → Fin S1x27x1.rank)
  bcast_S8192_S1x1x8192_2 : S8192.BroadcastsInDim S1x1x8192 (![2] : Fin 1 → Fin S1x1x8192.rank)
  bcast_S1x1x8192_S128x27x8192_0_1_2 : S1x1x8192.BroadcastsInDim S128x27x8192 (![0, 1, 2] : Fin 3 → Fin S128x27x8192.rank)
  bcast_S_S128x1x1 : S_.BroadcastsInDim S128x1x1 (![] : Fin 0 → Fin S128x1x1.rank)
  bcast_S_S1x27x1 : S_.BroadcastsInDim S1x27x1 (![] : Fin 0 → Fin S1x27x1.rank)
  bcast_S128x1x1_S128x27x8192_0_1_2 : S128x1x1.BroadcastsInDim S128x27x8192 (![0, 1, 2] : Fin 3 → Fin S128x27x8192.rank)
  bcast_S1x27x1_S128x27x8192_0_1_2 : S1x27x1.BroadcastsInDim S128x27x8192 (![0, 1, 2] : Fin 3 → Fin S128x27x8192.rank)
  bcast_S128x27x8192_S128x27x8192x1_0_1_2 : S128x27x8192.BroadcastsInDim S128x27x8192x1 (![0, 1, 2] : Fin 3 → Fin S128x27x8192x1.rank)
  concatenates_S128x27x8192x1_S128x27x8192x1_S128x27x8192x1_S128x27x8192x3_d3 : Shape.Concatenates [S128x27x8192x1, S128x27x8192x1, S128x27x8192x1] S128x27x8192x3 3
  bcast_S1x27x3_S128x27x3_0_1_2 : S1x27x3.BroadcastsInDim S128x27x3 (![0, 1, 2] : Fin 3 → Fin S128x27x3.rank)
  bcast_S128x8192x3_S128x1x8192x3_0_2_3 : S128x8192x3.BroadcastsInDim S128x1x8192x3 (![0, 2, 3] : Fin 3 → Fin S128x1x8192x3.rank)
  bcast_S128x27x512_S128x27x512x1_0_1_2 : S128x27x512.BroadcastsInDim S128x27x512x1 (![0, 1, 2] : Fin 3 → Fin S128x27x512x1.rank)
  bcast_S_S128x27x512x1 : S_.BroadcastsInDim S128x27x512x1 (![] : Fin 0 → Fin S128x27x512x1.rank)
  shapeCasts_S128x1x8192x3_S128x8192x3 : S128x1x8192x3.ShapeCasts S128x8192x3
  bcast_S1_S1x1x1x1_3 : S1.BroadcastsInDim S1x1x1x1 (![3] : Fin 1 → Fin S1x1x1x1.rank)
  bcast_S1x1x1x1_S128x27x512x1_0_1_2_3 : S1x1x1x1.BroadcastsInDim S128x27x512x1 (![0, 1, 2, 3] : Fin 4 → Fin S128x27x512x1.rank)
  reducesTo_S128x27x512x1_S128x27x512_d3 : S128x27x512x1.ReducesTo [3] S128x27x512
  bcast_S128x27x512_S128x27x512x3_0_1_2 : S128x27x512.BroadcastsInDim S128x27x512x3 (![0, 1, 2] : Fin 3 → Fin S128x27x512x3.rank)
  bcast_S_S128x27x512x3 : S_.BroadcastsInDim S128x27x512x3 (![] : Fin 0 → Fin S128x27x512x3.rank)
  bcast_S128x27x3_S128x27x1x3_0_1_3 : S128x27x3.BroadcastsInDim S128x27x1x3 (![0, 1, 3] : Fin 3 → Fin S128x27x1x3.rank)
  bcast_S128x27x1x3_S128x27x512x3_0_1_2_3 : S128x27x1x3.BroadcastsInDim S128x27x512x3 (![0, 1, 2, 3] : Fin 4 → Fin S128x27x512x3.rank)
  shapeCasts_S128x27x512x3_S3456x512x3 : S128x27x512x3.ShapeCasts S3456x512x3
  scatter_S128x27x512_S128x27x8192x3_S128x27x8192_n_012_012_3_wf : ScatterDims.WF S128x27x512 S128x27x8192x3 S128x27x8192 [] [0, 1, 2] [0, 1, 2] 3
  gather_S128x8192x3_S128x27x512x1_S128x27x512x3_3_1_0_0_1_3_113_wf : GatherDims.WF S128x8192x3 S128x27x512x1 S128x27x512x3 [3] [1] [0] [1] [0] 3 ![1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S128x8192x3.size a
  hwx0_0 : ∀ i : grid0.Coords, EltTy.bits .f32 = 32 ∨ (Rect.block (s := S128x8192x3) S1x8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x27x3.size a ≤ S1x27x3.size a
  hwx0_1 : ∀ i : grid0.Coords, EltTy.bits .f32 = 32 ∨ (Rect.block (s := S1x27x3) S1x27x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x27x8192.size a ≤ S128x27x8192.size a
  hwx0_2 : ∀ i : grid0.Coords, EltTy.bits .i32 = 32 ∨ (Rect.block (s := S128x27x8192) S1x27x8192.size (cc0_transform_2 i) (hinb0_2 i)).WholeWords (EltTy.packing .i32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S128x27x512_S128x27x8192x3_S128x27x8192_n_012_012_3 : ScatterDims S128x27x512 S128x27x8192x3 S128x27x8192 where
  updateWindowDims := []
  insertedWindowDims := [0, 1, 2]
  scatterDimsToOperandDims := [0, 1, 2]
  indexVectorDim := 3
  wf := scatter_S128x27x512_S128x27x8192x3_S128x27x8192_n_012_012_3_wf
def gather_S128x8192x3_S128x27x512x1_S128x27x512x3_3_1_0_0_1_3_113 : GatherDims S128x8192x3 S128x27x512x1 S128x27x512x3 where
  offsetDims := [3]
  collapsedSliceDims := [1]
  operandBatchingDims := [0]
  startIndicesBatchingDims := [0]
  startIndexMap := [1]
  indexVectorDim := 3
  sliceSizes := ![1, 1, 3]
  wf := gather_S128x8192x3_S128x27x512x1_S128x27x512x3_3_1_0_0_1_3_113_wf

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x27x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x27x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192x3 : Shape := ⟨3, ![128, 8192, 3]⟩
abbrev S1x27x3 : Shape := ⟨3, ![1, 27, 3]⟩
abbrev S128x27x3 : Shape := ⟨3, ![128, 27, 3]⟩
abbrev S_ : Shape := ⟨0, ![]⟩
abbrev S128x8192 : Shape := ⟨2, ![128, 8192]⟩
abbrev S128x27 : Shape := ⟨2, ![128, 27]⟩
abbrev S128x27x8192 : Shape := ⟨3, ![128, 27, 8192]⟩
abbrev S128x1x8192 : Shape := ⟨3, ![128, 1, 8192]⟩
abbrev S128x27x1 : Shape := ⟨3, ![128, 27, 1]⟩
abbrev S128x27x512 : Shape := ⟨3, ![128, 27, 512]⟩
abbrev S128 : Shape := ⟨1, ![128]⟩
abbrev S128x1x1 : Shape := ⟨3, ![128, 1, 1]⟩
abbrev S27 : Shape := ⟨1, ![27]⟩
abbrev S1x27x1 : Shape := ⟨3, ![1, 27, 1]⟩
abbrev S8192 : Shape := ⟨1, ![8192]⟩
abbrev S1x1x8192 : Shape := ⟨3, ![1, 1, 8192]⟩
abbrev S128x27x8192x1 : Shape := ⟨4, ![128, 27, 8192, 1]⟩
abbrev S128x27x8192x3 : Shape := ⟨4, ![128, 27, 8192, 3]⟩
abbrev S128x1x8192x3 : Shape := ⟨4, ![128, 1, 8192, 3]⟩
abbrev S128x27x512x1 : Shape := ⟨4, ![128, 27, 512, 1]⟩
abbrev S1 : Shape := ⟨1, ![1]⟩
abbrev S1x1x1x1 : Shape := ⟨4, ![1, 1, 1, 1]⟩
abbrev S128x27x512x3 : Shape := ⟨4, ![128, 27, 512, 3]⟩
abbrev S128x27x1x3 : Shape := ⟨4, ![128, 27, 1, 3]⟩
abbrev S3456x512x3 : Shape := ⟨3, ![3456, 512, 3]⟩

abbrev nBuf : Space → Nat
  | .hbm => 104
  | .vmem => 0
  | .smem => 0
  | _ => 0

abbrev bufTy : (tb : Table) → Fin (tcTables nBuf tb) → BufTy
  | .hbm, ⟨0, _⟩ => ⟨S128x8192x3, .f32⟩
  | .hbm, ⟨1, _⟩ => ⟨S1x27x3, .f32⟩
  | .hbm, ⟨2, _⟩ => ⟨S128x27x3, .f32⟩
  | .hbm, ⟨3, _⟩ => ⟨S128x8192x3, .f32⟩
  | .hbm, ⟨4, _⟩ => ⟨S_, .f32⟩
  | .hbm, ⟨5, _⟩ => ⟨S128x8192, .f32⟩
  | .hbm, ⟨6, _⟩ => ⟨S128x27x3, .f32⟩
  | .hbm, ⟨7, _⟩ => ⟨S_, .f32⟩
  | .hbm, ⟨8, _⟩ => ⟨S128x27, .f32⟩
  | .hbm, ⟨9, _⟩ => ⟨S128x27x8192, .f32⟩
  | .hbm, ⟨10, _⟩ => ⟨S128x1x8192, .f32⟩
  | .hbm, ⟨11, _⟩ => ⟨S128x27x1, .f32⟩
  | .hbm, ⟨12, _⟩ => ⟨S128x27x8192, .f32⟩
  | .hbm, ⟨13, _⟩ => ⟨S128x27x8192, .f32⟩
  | .hbm, ⟨14, _⟩ => ⟨S128x27x8192, .f32⟩
  | .hbm, ⟨15, _⟩ => ⟨S_, .f32⟩
  | .hbm, ⟨16, _⟩ => ⟨S128x27x8192, .f32⟩
  | .hbm, ⟨17, _⟩ => ⟨S128x27x8192, .f32⟩
  | .hbm, ⟨18, _⟩ => ⟨S128x27x8192, .f32⟩
  | .hbm, ⟨19, _⟩ => ⟨S_, .f32⟩
  | .hbm, ⟨20, _⟩ => ⟨S128x27x8192, .f32⟩
  | .hbm, ⟨21, _⟩ => ⟨S128x27x8192, .i1⟩
  | .hbm, ⟨22, _⟩ => ⟨S128x27x8192, .i32⟩
  | .hbm, ⟨23, _⟩ => ⟨S_, .i32⟩
  | .hbm, ⟨24, _⟩ => ⟨S_, .i32⟩
  | .hbm, ⟨25, _⟩ => ⟨S128x27x8192, .i32⟩
  | .hbm, ⟨26, _⟩ => ⟨S_, .i32⟩
  | .hbm, ⟨27, _⟩ => ⟨S128x27x8192, .i32⟩
  | .hbm, ⟨28, _⟩ => ⟨S128x27x8192, .i32⟩
  | .hbm, ⟨29, _⟩ => ⟨S_, .i32⟩
  | .hbm, ⟨30, _⟩ => ⟨S_, .i32⟩
  | .hbm, ⟨31, _⟩ => ⟨S128x27x8192, .i32⟩
  | .hbm, ⟨32, _⟩ => ⟨S128x27x8192, .i32⟩
  | .hbm, ⟨33, _⟩ => ⟨S128x27x8192, .i32⟩
  | .hbm, ⟨34, _⟩ => ⟨S_, .i1⟩
  | .hbm, ⟨35, _⟩ => ⟨S_, .i32⟩
  | .hbm, ⟨36, _⟩ => ⟨S128x27, .i1⟩
  | .hbm, ⟨37, _⟩ => ⟨S128x27, .i32⟩
  | .hbm, ⟨38, _⟩ => ⟨S128x27x1, .i32⟩
  | .hbm, ⟨39, _⟩ => ⟨S128x27x512, .i32⟩
  | .hbm, ⟨40, _⟩ => ⟨S128, .i32⟩
  | .hbm, ⟨41, _⟩ => ⟨S128x1x1, .i32⟩
  | .hbm, ⟨42, _⟩ => ⟨S27, .i32⟩
  | .hbm, ⟨43, _⟩ => ⟨S1x27x1, .i32⟩
  | .hbm, ⟨44, _⟩ => ⟨S8192, .i32⟩
  | .hbm, ⟨45, _⟩ => ⟨S1x1x8192, .i32⟩
  | .hbm, ⟨46, _⟩ => ⟨S128x27x8192, .i32⟩
  | .hbm, ⟨47, _⟩ => ⟨S_, .i32⟩
  | .hbm, ⟨48, _⟩ => ⟨S128x1x1, .i32⟩
  | .hbm, ⟨49, _⟩ => ⟨S128x1x1, .i1⟩
  | .hbm, ⟨50, _⟩ => ⟨S_, .i32⟩
  | .hbm, ⟨51, _⟩ => ⟨S128x1x1, .i32⟩
  | .hbm, ⟨52, _⟩ => ⟨S128x1x1, .i32⟩
  | .hbm, ⟨53, _⟩ => ⟨S128x1x1, .i32⟩
  | .hbm, ⟨54, _⟩ => ⟨S_, .i32⟩
  | .hbm, ⟨55, _⟩ => ⟨S1x27x1, .i32⟩
  | .hbm, ⟨56, _⟩ => ⟨S1x27x1, .i1⟩
  | .hbm, ⟨57, _⟩ => ⟨S_, .i32⟩
  | .hbm, ⟨58, _⟩ => ⟨S1x27x1, .i32⟩
  | .hbm, ⟨59, _⟩ => ⟨S1x27x1, .i32⟩
  | .hbm, ⟨60, _⟩ => ⟨S1x27x1, .i32⟩
  | .hbm, ⟨61, _⟩ => ⟨S_, .i32⟩
  | .hbm, ⟨62, _⟩ => ⟨S128x27x8192, .i32⟩
  | .hbm, ⟨63, _⟩ => ⟨S128x27x8192, .i1⟩
  | .hbm, ⟨64, _⟩ => ⟨S_, .i32⟩
  | .hbm, ⟨65, _⟩ => ⟨S128x27x8192, .i32⟩
  | .hbm, ⟨66, _⟩ => ⟨S128x27x8192, .i32⟩
  | .hbm, ⟨67, _⟩ => ⟨S128x27x8192, .i32⟩
  | .hbm, ⟨68, _⟩ => ⟨S128x27x8192, .i32⟩
  | .hbm, ⟨69, _⟩ => ⟨S128x27x8192, .i32⟩
  | .hbm, ⟨70, _⟩ => ⟨S128x27x8192x1, .i32⟩
  | .hbm, ⟨71, _⟩ => ⟨S128x27x8192x1, .i32⟩
  | .hbm, ⟨72, _⟩ => ⟨S128x27x8192x1, .i32⟩
  | .hbm, ⟨73, _⟩ => ⟨S128x27x8192x3, .i32⟩
  | .hbm, ⟨74, _⟩ => ⟨S128x27x512, .i32⟩
  | .hbm, ⟨75, _⟩ => ⟨S128x1x8192x3, .f32⟩
  | .hbm, ⟨76, _⟩ => ⟨S128x27x512x1, .i32⟩
  | .hbm, ⟨77, _⟩ => ⟨S_, .i32⟩
  | .hbm, ⟨78, _⟩ => ⟨S128x27x512x1, .i32⟩
  | .hbm, ⟨79, _⟩ => ⟨S128x27x512x1, .i1⟩
  | .hbm, ⟨80, _⟩ => ⟨S_, .i32⟩
  | .hbm, ⟨81, _⟩ => ⟨S128x27x512x1, .i32⟩
  | .hbm, ⟨82, _⟩ => ⟨S128x27x512x1, .i32⟩
  | .hbm, ⟨83, _⟩ => ⟨S128x27x512x1, .i32⟩
  | .hbm, ⟨84, _⟩ => ⟨S128x8192x3, .f32⟩
  | .hbm, ⟨85, _⟩ => ⟨S1, .i32⟩
  | .hbm, ⟨86, _⟩ => ⟨S_, .i32⟩
  | .hbm, ⟨87, _⟩ => ⟨S128x27x512x1, .i32⟩
  | .hbm, ⟨88, _⟩ => ⟨S128x27x512x1, .i1⟩
  | .hbm, ⟨89, _⟩ => ⟨S1x1x1x1, .i32⟩
  | .hbm, ⟨90, _⟩ => ⟨S128x27x512x1, .i32⟩
  | .hbm, ⟨91, _⟩ => ⟨S128x27x512x1, .i1⟩
  | .hbm, ⟨92, _⟩ => ⟨S128x27x512x1, .i1⟩
  | .hbm, ⟨93, _⟩ => ⟨S_, .i1⟩
  | .hbm, ⟨94, _⟩ => ⟨S128x27x512, .i1⟩
  | .hbm, ⟨95, _⟩ => ⟨S128x27x512x3, .f32⟩
  | .hbm, ⟨96, _⟩ => ⟨S128x27x512x3, .i1⟩
  | .hbm, ⟨97, _⟩ => ⟨S_, .f32⟩
  | .hbm, ⟨98, _⟩ => ⟨S128x27x512x3, .f32⟩
  | .hbm, ⟨99, _⟩ => ⟨S128x27x512x3, .f32⟩
  | .hbm, ⟨100, _⟩ => ⟨S128x27x1x3, .f32⟩
  | .hbm, ⟨101, _⟩ => ⟨S128x27x512x3, .f32⟩
  | .hbm, ⟨102, _⟩ => ⟨S128x27x512x3, .f32⟩
  | .hbm, ⟨103, _⟩ => ⟨S3456x512x3, .f32⟩
  | _, _ => ⟨S128x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_c : Ref sig .tc := ⟨.hbm, 23, rfl⟩
abbrev main_call0_call0_v0 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_call2_v0 : Ref sig .tc := ⟨.hbm, 33, rfl⟩
abbrev main_call2_c : Ref sig .tc := ⟨.hbm, 34, rfl⟩
abbrev main_call2_c_0 : Ref sig .tc := ⟨.hbm, 35, rfl⟩
abbrev main_call2_v1_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩

abbrev nD : Nat := 1
abbrev τ : Topo := Topo.v7x

variable {F : FTy → Type} [FloatOps F]

class Facts₀ : Prop where
  bcast_S1x27x3_S128x27x3_0_1_2 : S1x27x3.BroadcastsInDim S128x27x3 (![0, 1, 2] : Fin 3 → Fin S128x27x3.rank)
  reducesTo_S128x8192x3_S128x8192_d2 : S128x8192x3.ReducesTo [2] S128x8192
  h_S_ : 0 < S_.numel
  reducesTo_S128x27x3_S128x27_d2 : S128x27x3.ReducesTo [2] S128x27
  bcast_S128x8192_S128x1x8192_0_2 : S128x8192.BroadcastsInDim S128x1x8192 (![0, 2] : Fin 2 → Fin S128x1x8192.rank)
  bcast_S128x27_S128x27x1_0_1 : S128x27.BroadcastsInDim S128x27x1 (![0, 1] : Fin 2 → Fin S128x27x1.rank)
  bcast_S128x1x8192_S128x27x8192_0_1_2 : S128x1x8192.BroadcastsInDim S128x27x8192 (![0, 1, 2] : Fin 3 → Fin S128x27x8192.rank)
  bcast_S128x27x1_S128x27x8192_0_1_2 : S128x27x1.BroadcastsInDim S128x27x8192 (![0, 1, 2] : Fin 3 → Fin S128x27x8192.rank)
  bcast_S_S128x27x8192 : S_.BroadcastsInDim S128x27x8192 (![] : Fin 0 → Fin S128x27x8192.rank)
  natLt_1_32 : 1 < 32
  bcast_S_S_ : S_.BroadcastsInDim S_ (![] : Fin 0 → Fin S_.rank)
  reduceWindows_S128x27x8192_S128x27x8192_w1s1p0_0_w1s1p0_0_w8192s1p8191_0 : S128x27x8192.ReduceWindows (![1, 1, 8192] : Fin 3 → Nat) ![1, 1, 1] ![0, 0, 8191] ![0, 0, 0] S128x27x8192
  reducesTo_S128x27x8192_S128x27_d2 : S128x27x8192.ReducesTo [2] S128x27
  bcast_S128x27x1_S128x27x512_0_1_2 : S128x27x1.BroadcastsInDim S128x27x512 (![0, 1, 2] : Fin 3 → Fin S128x27x512.rank)
  bcast_S128_S128x1x1_0 : S128.BroadcastsInDim S128x1x1 (![0] : Fin 1 → Fin S128x1x1.rank)
  bcast_S27_S1x27x1_1 : S27.BroadcastsInDim S1x27x1 (![1] : Fin 1 → Fin S1x27x1.rank)
  bcast_S8192_S1x1x8192_2 : S8192.BroadcastsInDim S1x1x8192 (![2] : Fin 1 → Fin S1x1x8192.rank)
  bcast_S1x1x8192_S128x27x8192_0_1_2 : S1x1x8192.BroadcastsInDim S128x27x8192 (![0, 1, 2] : Fin 3 → Fin S128x27x8192.rank)
  bcast_S_S128x1x1 : S_.BroadcastsInDim S128x1x1 (![] : Fin 0 → Fin S128x1x1.rank)
  bcast_S_S1x27x1 : S_.BroadcastsInDim S1x27x1 (![] : Fin 0 → Fin S1x27x1.rank)
  bcast_S128x1x1_S128x27x8192_0_1_2 : S128x1x1.BroadcastsInDim S128x27x8192 (![0, 1, 2] : Fin 3 → Fin S128x27x8192.rank)
  bcast_S1x27x1_S128x27x8192_0_1_2 : S1x27x1.BroadcastsInDim S128x27x8192 (![0, 1, 2] : Fin 3 → Fin S128x27x8192.rank)
  bcast_S128x27x8192_S128x27x8192x1_0_1_2 : S128x27x8192.BroadcastsInDim S128x27x8192x1 (![0, 1, 2] : Fin 3 → Fin S128x27x8192x1.rank)
  concatenates_S128x27x8192x1_S128x27x8192x1_S128x27x8192x1_S128x27x8192x3_d3 : Shape.Concatenates [S128x27x8192x1, S128x27x8192x1, S128x27x8192x1] S128x27x8192x3 3
  bcast_S128x8192x3_S128x1x8192x3_0_2_3 : S128x8192x3.BroadcastsInDim S128x1x8192x3 (![0, 2, 3] : Fin 3 → Fin S128x1x8192x3.rank)
  bcast_S128x27x512_S128x27x512x1_0_1_2 : S128x27x512.BroadcastsInDim S128x27x512x1 (![0, 1, 2] : Fin 3 → Fin S128x27x512x1.rank)
  bcast_S_S128x27x512x1 : S_.BroadcastsInDim S128x27x512x1 (![] : Fin 0 → Fin S128x27x512x1.rank)
  shapeCasts_S128x1x8192x3_S128x8192x3 : S128x1x8192x3.ShapeCasts S128x8192x3
  bcast_S1_S1x1x1x1_3 : S1.BroadcastsInDim S1x1x1x1 (![3] : Fin 1 → Fin S1x1x1x1.rank)
  bcast_S1x1x1x1_S128x27x512x1_0_1_2_3 : S1x1x1x1.BroadcastsInDim S128x27x512x1 (![0, 1, 2, 3] : Fin 4 → Fin S128x27x512x1.rank)
  reducesTo_S128x27x512x1_S128x27x512_d3 : S128x27x512x1.ReducesTo [3] S128x27x512
  bcast_S128x27x512_S128x27x512x3_0_1_2 : S128x27x512.BroadcastsInDim S128x27x512x3 (![0, 1, 2] : Fin 3 → Fin S128x27x512x3.rank)
  bcast_S_S128x27x512x3 : S_.BroadcastsInDim S128x27x512x3 (![] : Fin 0 → Fin S128x27x512x3.rank)
  bcast_S128x27x3_S128x27x1x3_0_1_3 : S128x27x3.BroadcastsInDim S128x27x1x3 (![0, 1, 3] : Fin 3 → Fin S128x27x1x3.rank)
  bcast_S128x27x1x3_S128x27x512x3_0_1_2_3 : S128x27x1x3.BroadcastsInDim S128x27x512x3 (![0, 1, 2, 3] : Fin 4 → Fin S128x27x512x3.rank)
  shapeCasts_S128x27x512x3_S3456x512x3 : S128x27x512x3.ShapeCasts S3456x512x3
  dot_S128x27x3_S128x8192x3_S128x27x8192_2_2_1_1_0_0_wf : DotDims.WF S128x27x3 S128x8192x3 S128x27x8192 [2] [2] [1] [1] [0] [0]
  scatter_S128x27x512_S128x27x8192x3_S128x27x8192_n_012_012_3_wf : ScatterDims.WF S128x27x512 S128x27x8192x3 S128x27x8192 [] [0, 1, 2] [0, 1, 2] 3
  gather_S128x8192x3_S128x27x512x1_S128x27x512x3_3_1_0_0_1_3_113_wf : GatherDims.WF S128x8192x3 S128x27x512x1 S128x27x512x3 [3] [1] [0] [1] [0] 3 ![1, 1, 3]

variable [Facts₀]

def dot_S128x27x3_S128x8192x3_S128x27x8192_2_2_1_1_0_0 : DotDims S128x27x3 S128x8192x3 S128x27x8192 where
  lhsContracting := [2]
  rhsContracting := [2]
  lhsNonContracting := [1]
  rhsNonContracting := [1]
  lhsBatch := [0]
  rhsBatch := [0]
  wf := dot_S128x27x3_S128x8192x3_S128x27x8192_2_2_1_1_0_0_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S128x27x512_S128x27x8192x3_S128x27x8192_n_012_012_3 : ScatterDims S128x27x512 S128x27x8192x3 S128x27x8192 where
  updateWindowDims := []
  insertedWindowDims := [0, 1, 2]
  scatterDimsToOperandDims := [0, 1, 2]
  indexVectorDim := 3
  wf := scatter_S128x27x512_S128x27x8192x3_S128x27x8192_n_012_012_3_wf
def gather_S128x8192x3_S128x27x512x1_S128x27x512x3_3_1_0_0_1_3_113 : GatherDims S128x8192x3 S128x27x512x1 S128x27x512x3 where
  offsetDims := [3]
  collapsedSliceDims := [1]
  operandBatchingDims := [0]
  startIndicesBatchingDims := [0]
  startIndexMap := [1]
  indexVectorDim := 3
  sliceSizes := ![1, 1, 3]
  wf := gather_S128x8192x3_S128x27x512x1_S128x27x512x3_3_1_0_0_1_3_113_wf

class Facts : Prop extends Facts₀ where

variable [Facts]
-- ==== Proof.KFrame.lean ====
/-
  The frame of `KernelIdeal`: @main is ONE kernel region followed by the host lines of the ball query (the
  cumulative count, the slot selection, the arg-max, the scatter, the gather and the recentring), and every weakly
  fair execution of it terminates, faults nowhere and leaves the two argument arrays as launched — at any float
  instance.

  The region: a grid of 128 points, one per batch. Window 0 is the point cloud (block b = the 8192 points of
  batch b, fetched at every point), window 1 the 27 centres (one block, fetched once), window 2 the membership
  words (block b = the 27 x 8192 words of batch b, written back at every point). The body loads the two input
  blocks whole and stores one value over the whole output block, so what it leaves in the output's staging
  buffer is that value as a function of the two input blocks (`maskBlock`), whatever the buffer held before.
  The proof data: every array at its contents at launch (no host line precedes the region), after the body each
  input buffer at its block and the output buffer at `maskBlock` of the two blocks.

  The host lines after the region touch only unscoped TensorCore buffers, allocate nothing, and none of them
  writes an array of the pipeline (each writes its own result buffer): stated stretch by stretch.
-/
import proofs.«164438_j40630390620888_1_alg».proof.Proof.Gen.KernelIdeal.Launch
import proofs.«164438_j40630390620888_1_alg».proof.Proof.Gen.KernelIdeal.Skeleton
import proofs.«164438_j40630390620888_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch (the outlined functions' lines at their calls). -/
abbrev tailOps : List (List (HloOp τ sig (Elt F))) :=
  [hostOps1, hostOps1_1, hostOps1_2, hostOps1_3, hostOps1_4, hostOps1_5, hostOps1_6, hostOps1_7]

/-- Core `c`'s buffer contents when the region is entered: the contents at launch (nothing precedes the region). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The later lines: what they touch -/

section Lines

/-- A stretch allocates nothing. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- No line of a stretch writes one of the three arrays of the pipeline: each writes only its own result buffer. -/
theorem hostOps1_keeps : (hostOps1 : List (HloOp τ sig (Elt F))).Forall fun op =>
    ∀ w : Fin 3, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_1_keeps : (hostOps1_1 : List (HloOp τ sig (Elt F))).Forall fun op =>
    ∀ w : Fin 3, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_2_keeps : (hostOps1_2 : List (HloOp τ sig (Elt F))).Forall fun op =>
    ∀ w : Fin 3, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_3_keeps : (hostOps1_3 : List (HloOp τ sig (Elt F))).Forall fun op =>
    ∀ w : Fin 3, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_4_keeps : (hostOps1_4 : List (HloOp τ sig (Elt F))).Forall fun op =>
    ∀ w : Fin 3, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_5_keeps : (hostOps1_5 : List (HloOp τ sig (Elt F))).Forall fun op =>
    ∀ w : Fin 3, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_6_keeps : (hostOps1_6 : List (HloOp τ sig (Elt F))).Forall fun op =>
    ∀ w : Fin 3, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_7_keeps : (hostOps1_7 : List (HloOp τ sig (Elt F))).Forall fun op =>
    ∀ w : Fin 3, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)

/-- A property of every line of every stretch, from the property stretch by stretch. -/
theorem tailOps_forall {Q : HloOp τ sig (Elt F) → Prop}
    (h0 : (hostOps1 : List (HloOp τ sig (Elt F))).Forall Q) (h1 : (hostOps1_1 : List (HloOp τ sig (Elt F))).Forall Q)
    (h2 : (hostOps1_2 : List (HloOp τ sig (Elt F))).Forall Q) (h3 : (hostOps1_3 : List (HloOp τ sig (Elt F))).Forall Q)
    (h4 : (hostOps1_4 : List (HloOp τ sig (Elt F))).Forall Q) (h5 : (hostOps1_5 : List (HloOp τ sig (Elt F))).Forall Q)
    (h6 : (hostOps1_6 : List (HloOp τ sig (Elt F))).Forall Q) (h7 : (hostOps1_7 : List (HloOp τ sig (Elt F))).Forall Q) :
    ∀ ops ∈ (tailOps : List (List (HloOp τ sig (Elt F)))), ∀ op ∈ ops, Q op := by
  intro ops hops op hop
  simp only [tailOps, List.mem_cons, List.mem_nil_iff, or_false] at hops
  rcases hops with rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tailOps_forall (Q := fun op => op.bufs ⊆ StableHlo.tcRefs τ sig)
    hostOps1_sub hostOps1_1_sub hostOps1_2_sub hostOps1_3_sub hostOps1_4_sub hostOps1_5_sub hostOps1_6_sub hostOps1_7_sub ops hops op hop)
/-- They allocate nothing. -/
theorem sfx_fresh : ∀ ops ∈ (tailOps : List (List (HloOp τ sig (Elt F)))), ∀ op ∈ ops, op.fresh = ∅ :=
  tailOps_forall hostOps1_fresh hostOps1_1_fresh hostOps1_2_fresh hostOps1_3_fresh hostOps1_4_fresh hostOps1_5_fresh hostOps1_6_fresh hostOps1_7_fresh
/-- And write no array of the pipeline. -/
theorem sfx_keeps : ∀ ops ∈ (tailOps : List (List (HloOp τ sig (Elt F)))), ∀ op ∈ ops,
    ∀ w, Proc.devRef .tc (Pipeline.arrRef spec0 w) ∉ op.writes :=
  tailOps_forall hostOps1_keeps hostOps1_1_keeps hostOps1_2_keeps hostOps1_3_keeps hostOps1_4_keeps hostOps1_5_keeps hostOps1_6_keeps hostOps1_7_keeps

end Lines

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point cloud's staging buffer holds batch t's points at every point of the grid. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The centres' staging buffer holds the centres at every point, though they are fetched only at the first. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's staging buffer -/

abbrev rX : Rect S1x8192x3 := Rect.unit (s := S1x8192x3) ![0, 0, 0] S1x8192x3.size Facts₀.inb_S1x8192x3_S1x8192x3_0_0_0
abbrev rC : Rect S1x27x3 := Rect.unit (s := S1x27x3) ![0, 0, 0] S1x27x3.size Facts₀.inb_S1x27x3_S1x27x3_0_0_0
abbrev rM : Rect S1x27x8192 := Rect.unit (s := S1x27x8192) ![0, 0, 0] S1x27x8192.size Facts₀.inb_S1x27x8192_S1x27x8192_0_0_0

/-- The membership words of one batch from that batch's points and the centres: the body's one store, over the whole block. -/
def maskBlock (x0 : Vec F S1x8192x3 .f32) (x1 : Vec F S1x27x3 .f32) : Vec F S1x27x8192 .i32 :=
  View.canon [⟨rM, k0_pay1 (View.ld x0 rX) (View.ld x1 rC)⟩]

/-- The one store covers the block. -/
theorem maskBlock_cover (p0 : Vec F S1x27x8192 .i32) (y : S1x27x8192.Idx) :
    ∃ pc ∈ ([⟨rM, p0⟩] : List (View.Piece (Elt F) S1x27x8192 .i32)), y ∈ pc.1.set :=
  View.cover_of_tiled [⟨rM, p0⟩] S1x27x8192.size (by rfl) y

/-! ## The body's triple -/

set_option maxHeartbeats 1000000 in
/-- The body on whole staging memrefs, the inputs' at `x0`, `x1` and the output's at anything, runs to the
    continuation with the inputs' as they were and the output's at `maskBlock x0 x1`. -/
theorem sound_kernel (c : Dev nD) (E : Set ℕ) (i : grid0.Coords) (arg1 : Memref sig .tc .vmem S1x8192x3 .f32) (harg1 : arg1.IsWhole) (arg2 : Memref sig .tc .vmem S1x27x3 .f32) (harg2 : arg2.IsWhole) (arg3 : Memref sig .tc .vmem S1x27x8192 .i32) (harg3 : arg3.IsWhole)
    (x0 : Vec F S1x8192x3 .f32) (x1 : Vec F S1x27x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (maskBlock x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (maskBlock_cover _)

/-! ## The pipeline's proof data -/

/-- The proof data of the pipeline on core `c`: the arrays as launched; after the body at point `t` each input's
    buffer at its block and the output's at `maskBlock` of the two blocks; the scoped rest untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => maskBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = maskBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data give and every other unscoped buffer as the later lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The argument arrays are input windows' arrays: they end at their contents at launch. -/
theorem arg0_kept {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem arg1_kept {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- The result buffer bypasses the region: it ends as the later lines leave it. -/
theorem result_at {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_v46) = Pipeline.afterTail₀ cfgs (dats m) 0 (V0 m) tailOps c main_v46 :=
  (h c).2 main_v46 (Pipeline.mem_restRefs_of main_v46 (by decide) (by decide))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨arg0_kept m h c, arg1_kept m h c⟩) (run_main m ρ)

end Cert.KernelIdeal.Hand

end
-- ==== Proof.KFrameBits.lean ====
/-
  The frame of `Kernel`: @main is ONE kernel region followed by the host lines of the ball query (the
  cumulative count, the slot selection, the arg-max, the scatter, the gather and the recentring), and every weakly
  fair execution of it terminates, faults nowhere and leaves the two argument arrays as launched — at any float
  instance.

  The region: a grid of 128 points, one per batch. Window 0 is the point cloud (block b = the 8192 points of
  batch b, fetched at every point), window 1 the 27 centres (one block, fetched once), window 2 the membership
  words (block b = the 27 x 8192 words of batch b, written back at every point). The body loads the two input
  blocks whole and stores one value over the whole output block, so what it leaves in the output's staging
  buffer is that value as a function of the two input blocks (`maskBlock`), whatever the buffer held before.
  The proof data: every array at its contents at launch (no host line precedes the region), after the body each
  input buffer at its block and the output buffer at `maskBlock` of the two blocks.

  The host lines after the region touch only unscoped TensorCore buffers, allocate nothing, and none of them
  writes an array of the pipeline (each writes its own result buffer): stated stretch by stretch.
-/
import proofs.«164438_j40630390620888_1_alg».proof.Proof.Gen.Kernel.Launch
import proofs.«164438_j40630390620888_1_alg».proof.Proof.Gen.Kernel.Skeleton
import proofs.«164438_j40630390620888_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch (the outlined functions' lines at their calls). -/
abbrev tailOps : List (List (HloOp τ sig (Elt F))) :=
  [hostOps1, hostOps1_1, hostOps1_2, hostOps1_3, hostOps1_4, hostOps1_5, hostOps1_6, hostOps1_7]

/-- Core `c`'s buffer contents when the region is entered: the contents at launch (nothing precedes the region). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The later lines: what they touch -/

section Lines

/-- A stretch allocates nothing. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- No line of a stretch writes one of the three arrays of the pipeline: each writes only its own result buffer. -/
theorem hostOps1_keeps : (hostOps1 : List (HloOp τ sig (Elt F))).Forall fun op =>
    ∀ w : Fin 3, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_1_keeps : (hostOps1_1 : List (HloOp τ sig (Elt F))).Forall fun op =>
    ∀ w : Fin 3, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_2_keeps : (hostOps1_2 : List (HloOp τ sig (Elt F))).Forall fun op =>
    ∀ w : Fin 3, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_3_keeps : (hostOps1_3 : List (HloOp τ sig (Elt F))).Forall fun op =>
    ∀ w : Fin 3, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_4_keeps : (hostOps1_4 : List (HloOp τ sig (Elt F))).Forall fun op =>
    ∀ w : Fin 3, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_5_keeps : (hostOps1_5 : List (HloOp τ sig (Elt F))).Forall fun op =>
    ∀ w : Fin 3, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_6_keeps : (hostOps1_6 : List (HloOp τ sig (Elt F))).Forall fun op =>
    ∀ w : Fin 3, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)
theorem hostOps1_7_keeps : (hostOps1_7 : List (HloOp τ sig (Elt F))).Forall fun op =>
    ∀ w : Fin 3, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; refine StableHlo.devRef_ne_of_ne ?_; revert w; decide)

/-- A property of every line of every stretch, from the property stretch by stretch. -/
theorem tailOps_forall {Q : HloOp τ sig (Elt F) → Prop}
    (h0 : (hostOps1 : List (HloOp τ sig (Elt F))).Forall Q) (h1 : (hostOps1_1 : List (HloOp τ sig (Elt F))).Forall Q)
    (h2 : (hostOps1_2 : List (HloOp τ sig (Elt F))).Forall Q) (h3 : (hostOps1_3 : List (HloOp τ sig (Elt F))).Forall Q)
    (h4 : (hostOps1_4 : List (HloOp τ sig (Elt F))).Forall Q) (h5 : (hostOps1_5 : List (HloOp τ sig (Elt F))).Forall Q)
    (h6 : (hostOps1_6 : List (HloOp τ sig (Elt F))).Forall Q) (h7 : (hostOps1_7 : List (HloOp τ sig (Elt F))).Forall Q) :
    ∀ ops ∈ (tailOps : List (List (HloOp τ sig (Elt F)))), ∀ op ∈ ops, Q op := by
  intro ops hops op hop
  simp only [tailOps, List.mem_cons, List.mem_nil_iff, or_false] at hops
  rcases hops with rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tailOps_forall (Q := fun op => op.bufs ⊆ StableHlo.tcRefs τ sig)
    hostOps1_sub hostOps1_1_sub hostOps1_2_sub hostOps1_3_sub hostOps1_4_sub hostOps1_5_sub hostOps1_6_sub hostOps1_7_sub ops hops op hop)
/-- They allocate nothing. -/
theorem sfx_fresh : ∀ ops ∈ (tailOps : List (List (HloOp τ sig (Elt F)))), ∀ op ∈ ops, op.fresh = ∅ :=
  tailOps_forall hostOps1_fresh hostOps1_1_fresh hostOps1_2_fresh hostOps1_3_fresh hostOps1_4_fresh hostOps1_5_fresh hostOps1_6_fresh hostOps1_7_fresh
/-- And write no array of the pipeline. -/
theorem sfx_keeps : ∀ ops ∈ (tailOps : List (List (HloOp τ sig (Elt F)))), ∀ op ∈ ops,
    ∀ w, Proc.devRef .tc (Pipeline.arrRef spec0 w) ∉ op.writes :=
  tailOps_forall hostOps1_keeps hostOps1_1_keeps hostOps1_2_keeps hostOps1_3_keeps hostOps1_4_keeps hostOps1_5_keeps hostOps1_6_keeps hostOps1_7_keeps

end Lines

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point cloud's staging buffer holds batch t's points at every point of the grid. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The centres' staging buffer holds the centres at every point, though they are fetched only at the first. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's staging buffer -/

abbrev rX : Rect S1x8192x3 := Rect.unit (s := S1x8192x3) ![0, 0, 0] S1x8192x3.size Facts₀.inb_S1x8192x3_S1x8192x3_0_0_0
abbrev rC : Rect S1x27x3 := Rect.unit (s := S1x27x3) ![0, 0, 0] S1x27x3.size Facts₀.inb_S1x27x3_S1x27x3_0_0_0
abbrev rM : Rect S1x27x8192 := Rect.unit (s := S1x27x8192) ![0, 0, 0] S1x27x8192.size Facts₀.inb_S1x27x8192_S1x27x8192_0_0_0

/-- The membership words of one batch from that batch's points and the centres: the body's one store, over the whole block. -/
def maskBlock (x0 : Vec F S1x8192x3 .f32) (x1 : Vec F S1x27x3 .f32) : Vec F S1x27x8192 .i32 :=
  View.canon [⟨rM, k0_pay1 (View.ld x0 rX) (View.ld x1 rC)⟩]

/-- The one store covers the block. -/
theorem maskBlock_cover (p0 : Vec F S1x27x8192 .i32) (y : S1x27x8192.Idx) :
    ∃ pc ∈ ([⟨rM, p0⟩] : List (View.Piece (Elt F) S1x27x8192 .i32)), y ∈ pc.1.set :=
  View.cover_of_tiled [⟨rM, p0⟩] S1x27x8192.size (by rfl) y

/-! ## The body's triple -/

set_option maxHeartbeats 1000000 in
/-- The body on whole staging memrefs, the inputs' at `x0`, `x1` and the output's at anything, runs to the
    continuation with the inputs' as they were and the output's at `maskBlock x0 x1`. -/
theorem sound_kernel (c : Dev nD) (E : Set ℕ) (i : grid0.Coords) (arg1 : Memref sig .tc .vmem S1x8192x3 .f32) (harg1 : arg1.IsWhole) (arg2 : Memref sig .tc .vmem S1x27x3 .f32) (harg2 : arg2.IsWhole) (arg3 : Memref sig .tc .vmem S1x27x8192 .i32) (harg3 : arg3.IsWhole)
    (x0 : Vec F S1x8192x3 .f32) (x1 : Vec F S1x27x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (maskBlock x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (maskBlock_cover _)

/-! ## The pipeline's proof data -/

/-- The proof data of the pipeline on core `c`: the arrays as launched; after the body at point `t` each input's
    buffer at its block and the output's at `maskBlock` of the two blocks; the scoped rest untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => maskBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = maskBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data give and every other unscoped buffer as the later lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The argument arrays are input windows' arrays: they end at their contents at launch. -/
theorem arg0_kept {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem arg1_kept {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- The result buffer bypasses the region: it ends as the later lines leave it. -/
theorem result_at {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_v46) = Pipeline.afterTail₀ cfgs (dats m) 0 (V0 m) tailOps c main_v46 :=
  (h c).2 main_v46 (Pipeline.mem_restRefs_of main_v46 (by decide) (by decide))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨arg0_kept m h c, arg1_kept m h c⟩) (run_main m ρ)

end Cert.Kernel.Hand

end
-- ==== Proof.RefMask.lean ====
/-
  The reference's membership mask as ONE function of its two argument arrays: the composition of the first
  twenty host operations of its @main (the centres broadcast over the batch, the two squared norms as host
  sums over the coordinate axis, the inner products as one batched dot_general, the two keepdims broadcasts,
  (|x|^2 + |c|^2) - 2 <c, x>, and the comparison with the squared radius), at any float instance.
-/
import proofs.«164438_j40630390620888_1_alg».proof.ReferenceIdeal

noncomputable section

namespace Cert.ReferenceIdeal.Hand

open Idealize.ShloMosaic Cert.ReferenceIdeal Cert.ReferenceIdeal.Facts₀

variable {F : FTy → Type} [FloatOps F] [Cert.ReferenceIdeal.Facts]

/-- The centres repeated for each of the 128 batches (the reference's first operation). -/
def centresB (cc : (⟨S1x27x3, .f32⟩ : BufTy).Contents (Elt F)) : (⟨S128x27x3, .f32⟩ : BufTy).Contents (Elt F) :=
  broadcastInDim S128x27x3 ![0, 1, 2] bcast_S1x27x3_S128x27x3_0_1_2 cc

/-- The reference's mask: `(|x|^2 + |c|^2) - 2 <c, x> < r^2` over [128, 27, 8192]. -/
def maskR (x : (⟨S128x8192x3, .f32⟩ : BufTy).Contents (Elt F)) (cc : (⟨S1x27x3, .f32⟩ : BufTy).Contents (Elt F)) :
    (⟨S128x27x8192, .i1⟩ : BufTy).Contents (Elt F) :=
  cmpf .olt
    (subf
      (addf
        (broadcastInDim S128x27x8192 ![0, 1, 2] bcast_S128x1x8192_S128x27x8192_0_1_2
          (broadcastInDim S128x1x8192 ![0, 2] bcast_S128x8192_S128x1x8192_0_2
            (Host.reduceAdd (mulf x x) (constant S_ .f32 0x00000000#32) reducesTo_S128x8192x3_S128x8192_d2 h_S_)))
        (broadcastInDim S128x27x8192 ![0, 1, 2] bcast_S128x27x1_S128x27x8192_0_1_2
          (broadcastInDim S128x27x1 ![0, 1] bcast_S128x27_S128x27x1_0_1
            (Host.reduceAdd (mulf (centresB cc) (centresB cc)) (constant S_ .f32 0x00000000#32) reducesTo_S128x27x3_S128x27_d2 h_S_))))
      (mulf (broadcastInDim S128x27x8192 ![] bcast_S_S128x27x8192 (constant S_ .f32 0x40000000#32))
        (Host.dotGeneral dot_S128x27x3_S128x8192x3_S128x27x8192_2_2_1_1_0_0 none (centresB cc) x)))
    (broadcastInDim S128x27x8192 ![] bcast_S_S128x27x8192 (constant S_ .f32 0x3D800000#32))

end Cert.ReferenceIdeal.Hand

end
-- ==== Proof.RefTail.lean ====
/-
  The reference's operations from its call of @cumsum to its return, in order, as literal lists: each outlined
  function's operations written at its call over that call's buffer record. The lists are cut where the kernel's
  host stretches are cut, and once more just before the concatenate, so that the two programs can be compared one
  stretch at a time.
-/
import proofs.«164438_j40630390620888_1_alg».proof.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.ShloMosaic.StableHlo

variable {F : FTy → Type} [FloatOps F] [Cert.ReferenceIdeal.Facts]

/-- 4 operations. @cumsum at @main's call 0, over `main_call0` and the nested `main_call0_call0`: the mask widened to 32 bits, then @cumsum_0's zero, its rank-0 broadcast and the windowed sum along the last axis. -/
abbrev tailR1 : List (HloOp τ sig (Elt F)) :=
  ( StableHlo.TRef.unary (.of main_v15 : StableHlo.TRef sig ⟨S128x27x8192, .i1⟩) (.of main_call0_v0 : StableHlo.TRef sig ⟨S128x27x8192, .i32⟩) (extui 32 · natLt_1_32)
  :: StableHlo.TRef.nullary (.of main_call0_call0_c : StableHlo.TRef sig ⟨S_, .i32⟩) (constantI S_ 32 0#32)
  :: StableHlo.TRef.unary (.of main_call0_call0_c : StableHlo.TRef sig ⟨S_, .i32⟩) (.of main_call0_call0_v0 : StableHlo.TRef sig ⟨S_, .i32⟩) (broadcastInDim S_ ![] bcast_S_S_)
  :: StableHlo.TRef.binary (.of main_call0_v0 : StableHlo.TRef sig ⟨S128x27x8192, .i32⟩) (.of main_call0_call0_v0 : StableHlo.TRef sig ⟨S_, .i32⟩) (.of main_v16 : StableHlo.TRef sig ⟨S128x27x8192, .i32⟩) (fun x v => Host.reduceWindow IntOp.addi ![1, 1, 8192] ![1, 1, 1] ![0, 0, 8191] ![0, 0, 0] x v reduceWindows_S128x27x8192_S128x27x8192_w1s1p0_0_w1s1p0_0_w8192s1p8191_0 h_S_)
  :: [] )
/-- Each touches TensorCore references only. -/
theorem tailR1_sub : (tailR1 : List (HloOp τ sig (Elt F))).Forall fun op => op.bufs ⊆ tcRefs τ sig :=
  ⟨unary_bufs_sub .., nullary_bufs_sub .., unary_bufs_sub .., binary_bufs_sub ..⟩

/-- 4 operations. @main: the constant one broadcast and subtracted from the running count, then the constant 512. -/
abbrev tailR2 : List (HloOp τ sig (Elt F)) :=
  ( StableHlo.nullary main_c (constantI S_ 32 1#32)
  :: StableHlo.unary main_c main_v17 (broadcastInDim S128x27x8192 ![] bcast_S_S128x27x8192 : (⟨S_, .i32⟩ : BufTy).Contents (Elt F) → (⟨S128x27x8192, .i32⟩ : BufTy).Contents (Elt F))
  :: StableHlo.binary main_v16 main_v17 main_v18 (subi : (⟨S128x27x8192, .i32⟩ : BufTy).Contents (Elt F) → (⟨S128x27x8192, .i32⟩ : BufTy).Contents (Elt F) → (⟨S128x27x8192, .i32⟩ : BufTy).Contents (Elt F))
  :: StableHlo.nullary main_c_3 (constantI S_ 32 512#32)
  :: [] )
/-- Each touches TensorCore references only. -/
theorem tailR2_sub : (tailR2 : List (HloOp τ sig (Elt F))).Forall fun op => op.bufs ⊆ tcRefs τ sig :=
  ⟨nullary_bufs_sub .., unary_bufs_sub .., binary_bufs_sub .., nullary_bufs_sub ..⟩

/-- 3 operations. @_where at @main's call 1, over `main_call1`: 512 converted, broadcast, and selected where the mask is clear. -/
abbrev tailR3 : List (HloOp τ sig (Elt F)) :=
  ( StableHlo.TRef.unary (.of main_c_3 : StableHlo.TRef sig ⟨S_, .i32⟩) (.of main_call1_v0 : StableHlo.TRef sig ⟨S_, .i32⟩) id
  :: StableHlo.TRef.unary (.of main_call1_v0 : StableHlo.TRef sig ⟨S_, .i32⟩) (.of main_call1_v1 : StableHlo.TRef sig ⟨S128x27x8192, .i32⟩) (broadcastInDim S128x27x8192 ![] bcast_S_S128x27x8192)
  :: StableHlo.TRef.ternary (.of main_v15 : StableHlo.TRef sig ⟨S128x27x8192, .i1⟩) (.of main_v18 : StableHlo.TRef sig ⟨S128x27x8192, .i32⟩) (.of main_call1_v1 : StableHlo.TRef sig ⟨S128x27x8192, .i32⟩) (.of main_v19 : StableHlo.TRef sig ⟨S128x27x8192, .i32⟩) select
  :: [] )
/-- Each touches TensorCore references only. -/
theorem tailR3_sub : (tailR3 : List (HloOp τ sig (Elt F))).Forall fun op => op.bufs ⊆ tcRefs τ sig :=
  ⟨unary_bufs_sub .., unary_bufs_sub .., ternary_bufs_sub ..⟩

/-- 5 operations. @argmax at @main's call 2, over `main_call2`: the iota along the last axis, the two initial values, and the two results of the paired reduction. -/
abbrev tailR4 : List (HloOp τ sig (Elt F)) :=
  ( StableHlo.TRef.nullary (.of main_call2_v0 : StableHlo.TRef sig ⟨S128x27x8192, .i32⟩) (iotaInDim S128x27x8192 32 2)
  :: StableHlo.TRef.nullary (.of main_call2_c : StableHlo.TRef sig ⟨S_, .i1⟩) (constantI S_ 1 0#1)
  :: StableHlo.TRef.nullary (.of main_call2_c_0 : StableHlo.TRef sig ⟨S_, .i32⟩) (constantI S_ 32 0#32)
  :: StableHlo.TRef.quaternary (.of main_v15 : StableHlo.TRef sig ⟨S128x27x8192, .i1⟩) (.of main_call2_v0 : StableHlo.TRef sig ⟨S128x27x8192, .i32⟩) (.of main_call2_c : StableHlo.TRef sig ⟨S_, .i1⟩) (.of main_call2_c_0 : StableHlo.TRef sig ⟨S_, .i32⟩) (.of main_call2_v1_0 : StableHlo.TRef sig ⟨S128x27, .i1⟩) (fun x y u v j => (Host.reduce2 reducer_argmax_i1_i32 x y u v reducesTo_S128x27x8192_S128x27_d2 h_S_ j).1)
  :: StableHlo.TRef.quaternary (.of main_v15 : StableHlo.TRef sig ⟨S128x27x8192, .i1⟩) (.of main_call2_v0 : StableHlo.TRef sig ⟨S128x27x8192, .i32⟩) (.of main_call2_c : StableHlo.TRef sig ⟨S_, .i1⟩) (.of main_call2_c_0 : StableHlo.TRef sig ⟨S_, .i32⟩) (.of main_v20 : StableHlo.TRef sig ⟨S128x27, .i32⟩) (fun x y u v j => (Host.reduce2 reducer_argmax_i1_i32 x y u v reducesTo_S128x27x8192_S128x27_d2 h_S_ j).2)
  :: [] )
/-- Each touches TensorCore references only. -/
theorem tailR4_sub : (tailR4 : List (HloOp τ sig (Elt F))).Forall fun op => op.bufs ⊆ tcRefs τ sig :=
  ⟨nullary_bufs_sub .., nullary_bufs_sub .., nullary_bufs_sub .., quaternary_bufs_sub .., quaternary_bufs_sub ..⟩

/-- 35 operations. @main: the argmax broadcast to the 512 slots, the three coordinate iotas with their negative-index wraps, and the three index planes each with a trailing unit axis, up to the concatenate's operands. -/
abbrev tailR5 : List (HloOp τ sig (Elt F)) :=
  ( StableHlo.unary main_v20 main_v21 (broadcastInDim S128x27x1 ![0, 1] bcast_S128x27_S128x27x1_0_1 : (⟨S128x27, .i32⟩ : BufTy).Contents (Elt F) → (⟨S128x27x1, .i32⟩ : BufTy).Contents (Elt F))
  :: StableHlo.unary main_v21 main_v22 (broadcastInDim S128x27x512 ![0, 1, 2] bcast_S128x27x1_S128x27x512_0_1_2 : (⟨S128x27x1, .i32⟩ : BufTy).Contents (Elt F) → (⟨S128x27x512, .i32⟩ : BufTy).Contents (Elt F))
  :: StableHlo.nullary main_v23 (iotaInDim S128 32 0)
  :: StableHlo.unary main_v23 main_v24 (broadcastInDim S128x1x1 ![0] bcast_S128_S128x1x1_0 : (⟨S128, .i32⟩ : BufTy).Contents (Elt F) → (⟨S128x1x1, .i32⟩ : BufTy).Contents (Elt F))
  :: StableHlo.nullary main_v25 (iotaInDim S27 32 0)
  :: StableHlo.unary main_v25 main_v26 (broadcastInDim S1x27x1 ![1] bcast_S27_S1x27x1_1 : (⟨S27, .i32⟩ : BufTy).Contents (Elt F) → (⟨S1x27x1, .i32⟩ : BufTy).Contents (Elt F))
  :: StableHlo.nullary main_v27 (iotaInDim S8192 32 0)
  :: StableHlo.unary main_v27 main_v28 (broadcastInDim S1x1x8192 ![2] bcast_S8192_S1x1x8192_2 : (⟨S8192, .i32⟩ : BufTy).Contents (Elt F) → (⟨S1x1x8192, .i32⟩ : BufTy).Contents (Elt F))
  :: StableHlo.unary main_v28 main_v29 (broadcastInDim S128x27x8192 ![0, 1, 2] bcast_S1x1x8192_S128x27x8192_0_1_2 : (⟨S1x1x8192, .i32⟩ : BufTy).Contents (Elt F) → (⟨S128x27x8192, .i32⟩ : BufTy).Contents (Elt F))
  :: StableHlo.nullary main_c_4 (constantI S_ 32 0#32)
  :: StableHlo.unary main_c_4 main_v30 (broadcastInDim S128x1x1 ![] bcast_S_S128x1x1 : (⟨S_, .i32⟩ : BufTy).Contents (Elt F) → (⟨S128x1x1, .i32⟩ : BufTy).Contents (Elt F))
  :: StableHlo.binary main_v24 main_v30 main_v31 (cmpi .slt : (⟨S128x1x1, .i32⟩ : BufTy).Contents (Elt F) → (⟨S128x1x1, .i32⟩ : BufTy).Contents (Elt F) → (⟨S128x1x1, .i1⟩ : BufTy).Contents (Elt F))
  :: StableHlo.nullary main_c_5 (constantI S_ 32 128#32)
  :: StableHlo.unary main_c_5 main_v32 (broadcastInDim S128x1x1 ![] bcast_S_S128x1x1 : (⟨S_, .i32⟩ : BufTy).Contents (Elt F) → (⟨S128x1x1, .i32⟩ : BufTy).Contents (Elt F))
  :: StableHlo.binary main_v24 main_v32 main_v33 (addi : (⟨S128x1x1, .i32⟩ : BufTy).Contents (Elt F) → (⟨S128x1x1, .i32⟩ : BufTy).Contents (Elt F) → (⟨S128x1x1, .i32⟩ : BufTy).Contents (Elt F))
  :: StableHlo.ternary main_v31 main_v33 main_v24 main_v34 (select : (⟨S128x1x1, .i1⟩ : BufTy).Contents (Elt F) → (⟨S128x1x1, .i32⟩ : BufTy).Contents (Elt F) → (⟨S128x1x1, .i32⟩ : BufTy).Contents (Elt F) → (⟨S128x1x1, .i32⟩ : BufTy).Contents (Elt F))
  :: StableHlo.nullary main_c_6 (constantI S_ 32 0#32)
  :: StableHlo.unary main_c_6 main_v35 (broadcastInDim S1x27x1 ![] bcast_S_S1x27x1 : (⟨S_, .i32⟩ : BufTy).Contents (Elt F) → (⟨S1x27x1, .i32⟩ : BufTy).Contents (Elt F))
  :: StableHlo.binary main_v26 main_v35 main_v36 (cmpi .slt : (⟨S1x27x1, .i32⟩ : BufTy).Contents (Elt F) → (⟨S1x27x1, .i32⟩ : BufTy).Contents (Elt F) → (⟨S1x27x1, .i1⟩ : BufTy).Contents (Elt F))
  :: StableHlo.nullary main_c_7 (constantI S_ 32 27#32)
  :: StableHlo.unary main_c_7 main_v37 (broadcastInDim S1x27x1 ![] bcast_S_S1x27x1 : (⟨S_, .i32⟩ : BufTy).Contents (Elt F) → (⟨S1x27x1, .i32⟩ : BufTy).Contents (Elt F))
  :: StableHlo.binary main_v26 main_v37 main_v38 (addi : (⟨S1x27x1, .i32⟩ : BufTy).Contents (Elt F) → (⟨S1x27x1, .i32⟩ : BufTy).Contents (Elt F) → (⟨S1x27x1, .i32⟩ : BufTy).Contents (Elt F))
  :: StableHlo.ternary main_v36 main_v38 main_v26 main_v39 (select : (⟨S1x27x1, .i1⟩ : BufTy).Contents (Elt F) → (⟨S1x27x1, .i32⟩ : BufTy).Contents (Elt F) → (⟨S1x27x1, .i32⟩ : BufTy).Contents (Elt F) → (⟨S1x27x1, .i32⟩ : BufTy).Contents (Elt F))
  :: StableHlo.nullary main_c_8 (constantI S_ 32 0#32)
  :: StableHlo.unary main_c_8 main_v40 (broadcastInDim S128x27x8192 ![] bcast_S_S128x27x8192 : (⟨S_, .i32⟩ : BufTy).Contents (Elt F) → (⟨S128x27x8192, .i32⟩ : BufTy).Contents (Elt F))
  :: StableHlo.binary main_v19 main_v40 main_v41 (cmpi .slt : (⟨S128x27x8192, .i32⟩ : BufTy).Contents (Elt F) → (⟨S128x27x8192, .i32⟩ : BufTy).Contents (Elt F) → (⟨S128x27x8192, .i1⟩ : BufTy).Contents (Elt F))
  :: StableHlo.nullary main_c_9 (constantI S_ 32 512#32)
  :: StableHlo.unary main_c_9 main_v42 (broadcastInDim S128x27x8192 ![] bcast_S_S128x27x8192 : (⟨S_, .i32⟩ : BufTy).Contents (Elt F) → (⟨S128x27x8192, .i32⟩ : BufTy).Contents (Elt F))
  :: StableHlo.binary main_v19 main_v42 main_v43 (addi : (⟨S128x27x8192, .i32⟩ : BufTy).Contents (Elt F) → (⟨S128x27x8192, .i32⟩ : BufTy).Contents (Elt F) → (⟨S128x27x8192, .i32⟩ : BufTy).Contents (Elt F))
  :: StableHlo.ternary main_v41 main_v43 main_v19 main_v44 (select : (⟨S128x27x8192, .i1⟩ : BufTy).Contents (Elt F) → (⟨S128x27x8192, .i32⟩ : BufTy).Contents (Elt F) → (⟨S128x27x8192, .i32⟩ : BufTy).Contents (Elt F) → (⟨S128x27x8192, .i32⟩ : BufTy).Contents (Elt F))
  :: StableHlo.unary main_v34 main_v45 (broadcastInDim S128x27x8192 ![0, 1, 2] bcast_S128x1x1_S128x27x8192_0_1_2 : (⟨S128x1x1, .i32⟩ : BufTy).Contents (Elt F) → (⟨S128x27x8192, .i32⟩ : BufTy).Contents (Elt F))
  :: StableHlo.unary main_v39 main_v46 (broadcastInDim S128x27x8192 ![0, 1, 2] bcast_S1x27x1_S128x27x8192_0_1_2 : (⟨S1x27x1, .i32⟩ : BufTy).Contents (Elt F) → (⟨S128x27x8192, .i32⟩ : BufTy).Contents (Elt F))
  :: StableHlo.unary main_v45 main_v47 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F))
  :: StableHlo.unary main_v46 main_v48 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F))
  :: StableHlo.unary main_v44 main_v49 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F))
  :: [] )
/-- Each touches TensorCore references only. -/
theorem tailR5_sub : (tailR5 : List (HloOp τ sig (Elt F))).Forall fun op => op.bufs ⊆ tcRefs τ sig :=
  ⟨unary_bufs_sub .., unary_bufs_sub .., nullary_bufs_sub .., unary_bufs_sub .., nullary_bufs_sub .., unary_bufs_sub .., nullary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub ..⟩

/-- 4 operations. @main: the three index planes concatenated, the scatter over them, the points broadcast with a unit axis, and the scattered indices with a trailing unit axis. -/
abbrev tailR6 : List (HloOp τ sig (Elt F)) :=
  ( StableHlo.nary ![main_v47, main_v48, main_v49] main_v50 (fun u => concatenate S128x27x8192x3 3 [⟨S128x27x8192x1, u 0⟩, ⟨S128x27x8192x1, u 1⟩, ⟨S128x27x8192x1, u 2⟩] concatenates_S128x27x8192x1_S128x27x8192x1_S128x27x8192x1_S128x27x8192x3_d3)
  :: StableHlo.ternary main_v22 main_v50 main_v29 main_v51 ((fun x i u => Host.scatter scatter_S128x27x512_S128x27x8192x3_S128x27x8192_n_012_012_3 (fun _ b => b) x i u) : (⟨S128x27x512, .i32⟩ : BufTy).Contents (Elt F) → (⟨S128x27x8192x3, .i32⟩ : BufTy).Contents (Elt F) → (⟨S128x27x8192, .i32⟩ : BufTy).Contents (Elt F) → (⟨S128x27x512, .i32⟩ : BufTy).Contents (Elt F))
  :: StableHlo.unary main_arg0 main_v52 (broadcastInDim S128x1x8192x3 ![0, 2, 3] bcast_S128x8192x3_S128x1x8192x3_0_2_3 : (⟨S128x8192x3, .f32⟩ : BufTy).Contents (Elt F) → (⟨S128x1x8192x3, .f32⟩ : BufTy).Contents (Elt F))
  :: StableHlo.unary main_v51 main_v53 (broadcastInDim S128x27x512x1 ![0, 1, 2] bcast_S128x27x512_S128x27x512x1_0_1_2 : (⟨S128x27x512, .i32⟩ : BufTy).Contents (Elt F) → (⟨S128x27x512x1, .i32⟩ : BufTy).Contents (Elt F))
  :: [] )
/-- Each touches TensorCore references only. -/
theorem tailR6_sub : (tailR6 : List (HloOp τ sig (Elt F))).Forall fun op => op.bufs ⊆ tcRefs τ sig :=
  ⟨nary_bufs_sub .., ternary_bufs_sub .., unary_bufs_sub .., unary_bufs_sub ..⟩

/-- 23 operations. @take_along_axis at @main's call 3, over `main_call3`: the index wrap, the in-range test reduced over the unit axis, the gather, and the select against the quiet NaN. -/
abbrev tailR7 : List (HloOp τ sig (Elt F)) :=
  ( StableHlo.TRef.nullary (.of main_call3_c : StableHlo.TRef sig ⟨S_, .i32⟩) (constantI S_ 32 0#32)
  :: StableHlo.TRef.unary (.of main_call3_c : StableHlo.TRef sig ⟨S_, .i32⟩) (.of main_call3_v0 : StableHlo.TRef sig ⟨S128x27x512x1, .i32⟩) (broadcastInDim S128x27x512x1 ![] bcast_S_S128x27x512x1)
  :: StableHlo.TRef.binary (.of main_v53 : StableHlo.TRef sig ⟨S128x27x512x1, .i32⟩) (.of main_call3_v0 : StableHlo.TRef sig ⟨S128x27x512x1, .i32⟩) (.of main_call3_v1 : StableHlo.TRef sig ⟨S128x27x512x1, .i1⟩) (cmpi .slt)
  :: StableHlo.TRef.nullary (.of main_call3_c_0 : StableHlo.TRef sig ⟨S_, .i32⟩) (constantI S_ 32 8192#32)
  :: StableHlo.TRef.unary (.of main_call3_c_0 : StableHlo.TRef sig ⟨S_, .i32⟩) (.of main_call3_v2 : StableHlo.TRef sig ⟨S128x27x512x1, .i32⟩) (broadcastInDim S128x27x512x1 ![] bcast_S_S128x27x512x1)
  :: StableHlo.TRef.binary (.of main_v53 : StableHlo.TRef sig ⟨S128x27x512x1, .i32⟩) (.of main_call3_v2 : StableHlo.TRef sig ⟨S128x27x512x1, .i32⟩) (.of main_call3_v3 : StableHlo.TRef sig ⟨S128x27x512x1, .i32⟩) addi
  :: StableHlo.TRef.ternary (.of main_call3_v1 : StableHlo.TRef sig ⟨S128x27x512x1, .i1⟩) (.of main_call3_v3 : StableHlo.TRef sig ⟨S128x27x512x1, .i32⟩) (.of main_v53 : StableHlo.TRef sig ⟨S128x27x512x1, .i32⟩) (.of main_call3_v4 : StableHlo.TRef sig ⟨S128x27x512x1, .i32⟩) select
  :: StableHlo.TRef.reshape (.of main_v52 : StableHlo.TRef sig ⟨S128x1x8192x3, .f32⟩) (.of main_call3_v5 : StableHlo.TRef sig ⟨S128x8192x3, .f32⟩) rfl shapeCasts_S128x1x8192x3_S128x8192x3
  :: StableHlo.TRef.nullary (.of main_call3_c_1 : StableHlo.TRef sig ⟨S1, .i32⟩) (constantI S1 32 8191#32)
  :: StableHlo.TRef.nullary (.of main_call3_c_2 : StableHlo.TRef sig ⟨S_, .i32⟩) (constantI S_ 32 0#32)
  :: StableHlo.TRef.unary (.of main_call3_c_2 : StableHlo.TRef sig ⟨S_, .i32⟩) (.of main_call3_v6 : StableHlo.TRef sig ⟨S128x27x512x1, .i32⟩) (broadcastInDim S128x27x512x1 ![] bcast_S_S128x27x512x1)
  :: StableHlo.TRef.binary (.of main_call3_v4 : StableHlo.TRef sig ⟨S128x27x512x1, .i32⟩) (.of main_call3_v6 : StableHlo.TRef sig ⟨S128x27x512x1, .i32⟩) (.of main_call3_v7 : StableHlo.TRef sig ⟨S128x27x512x1, .i1⟩) (cmpi .sge)
  :: StableHlo.TRef.unary (.of main_call3_c_1 : StableHlo.TRef sig ⟨S1, .i32⟩) (.of main_call3_v8 : StableHlo.TRef sig ⟨S1x1x1x1, .i32⟩) (broadcastInDim S1x1x1x1 ![3] bcast_S1_S1x1x1x1_3)
  :: StableHlo.TRef.unary (.of main_call3_v8 : StableHlo.TRef sig ⟨S1x1x1x1, .i32⟩) (.of main_call3_v9 : StableHlo.TRef sig ⟨S128x27x512x1, .i32⟩) (broadcastInDim S128x27x512x1 ![0, 1, 2, 3] bcast_S1x1x1x1_S128x27x512x1_0_1_2_3)
  :: StableHlo.TRef.binary (.of main_call3_v4 : StableHlo.TRef sig ⟨S128x27x512x1, .i32⟩) (.of main_call3_v9 : StableHlo.TRef sig ⟨S128x27x512x1, .i32⟩) (.of main_call3_v10 : StableHlo.TRef sig ⟨S128x27x512x1, .i1⟩) (cmpi .sle)
  :: StableHlo.TRef.binary (.of main_call3_v7 : StableHlo.TRef sig ⟨S128x27x512x1, .i1⟩) (.of main_call3_v10 : StableHlo.TRef sig ⟨S128x27x512x1, .i1⟩) (.of main_call3_v11 : StableHlo.TRef sig ⟨S128x27x512x1, .i1⟩) andi
  :: StableHlo.TRef.nullary (.of main_call3_c_3 : StableHlo.TRef sig ⟨S_, .i1⟩) (constantI S_ 1 1#1)
  :: StableHlo.TRef.binary (.of main_call3_v11 : StableHlo.TRef sig ⟨S128x27x512x1, .i1⟩) (.of main_call3_c_3 : StableHlo.TRef sig ⟨S_, .i1⟩) (.of main_call3_v12 : StableHlo.TRef sig ⟨S128x27x512, .i1⟩) (fun x v => Host.reduce IntOp.andi x v reducesTo_S128x27x512x1_S128x27x512_d3 h_S_)
  :: StableHlo.TRef.binary (.of main_call3_v5 : StableHlo.TRef sig ⟨S128x8192x3, .f32⟩) (.of main_call3_v4 : StableHlo.TRef sig ⟨S128x27x512x1, .i32⟩) (.of main_call3_v13 : StableHlo.TRef sig ⟨S128x27x512x3, .f32⟩) (fun x i => Host.gather gather_S128x8192x3_S128x27x512x1_S128x27x512x3_3_1_0_0_1_3_113 x i)
  :: StableHlo.TRef.unary (.of main_call3_v12 : StableHlo.TRef sig ⟨S128x27x512, .i1⟩) (.of main_call3_v14 : StableHlo.TRef sig ⟨S128x27x512x3, .i1⟩) (broadcastInDim S128x27x512x3 ![0, 1, 2] bcast_S128x27x512_S128x27x512x3_0_1_2)
  :: StableHlo.TRef.nullary (.of main_call3_cst : StableHlo.TRef sig ⟨S_, .f32⟩) (constant S_ .f32 0x7FC00000#32)
  :: StableHlo.TRef.unary (.of main_call3_cst : StableHlo.TRef sig ⟨S_, .f32⟩) (.of main_call3_v15 : StableHlo.TRef sig ⟨S128x27x512x3, .f32⟩) (broadcastInDim S128x27x512x3 ![] bcast_S_S128x27x512x3)
  :: StableHlo.TRef.ternary (.of main_call3_v14 : StableHlo.TRef sig ⟨S128x27x512x3, .i1⟩) (.of main_call3_v13 : StableHlo.TRef sig ⟨S128x27x512x3, .f32⟩) (.of main_call3_v15 : StableHlo.TRef sig ⟨S128x27x512x3, .f32⟩) (.of main_v54 : StableHlo.TRef sig ⟨S128x27x512x3, .f32⟩) select
  :: [] )
/-- Each touches TensorCore references only. -/
theorem tailR7_sub : (tailR7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- 4 operations. @main: the centres broadcast to the gathered shape, subtracted, and the result reshaped. -/
abbrev tailR8 : List (HloOp τ sig (Elt F)) :=
  ( StableHlo.unary main_v0 main_v55 (broadcastInDim S128x27x1x3 ![0, 1, 3] bcast_S128x27x3_S128x27x1x3_0_1_3 : (⟨S128x27x3, .f32⟩ : BufTy).Contents (Elt F) → (⟨S128x27x1x3, .f32⟩ : BufTy).Contents (Elt F))
  :: StableHlo.unary main_v55 main_v56 (broadcastInDim S128x27x512x3 ![0, 1, 2, 3] bcast_S128x27x1x3_S128x27x512x3_0_1_2_3 : (⟨S128x27x1x3, .f32⟩ : BufTy).Contents (Elt F) → (⟨S128x27x512x3, .f32⟩ : BufTy).Contents (Elt F))
  :: StableHlo.binary main_v54 main_v56 main_v57 (subf : (⟨S128x27x512x3, .f32⟩ : BufTy).Contents (Elt F) → (⟨S128x27x512x3, .f32⟩ : BufTy).Contents (Elt F) → (⟨S128x27x512x3, .f32⟩ : BufTy).Contents (Elt F))
  :: StableHlo.reshape main_v57 main_v58 rfl shapeCasts_S128x27x512x3_S3456x512x3
  :: [] )
/-- Each touches TensorCore references only. -/
theorem tailR8_sub : (tailR8 : List (HloOp τ sig (Elt F))).Forall fun op => op.bufs ⊆ tcRefs τ sig :=
  ⟨unary_bufs_sub .., unary_bufs_sub .., binary_bufs_sub .., reshape_bufs_sub ..⟩

/-- The reference's 82 operations from statement 21 (its call of @cumsum) to the end, in order: the eight stretches
    one after the other. -/
abbrev tailR : List (HloOp τ sig (Elt F)) :=
  tailR1 ++ (tailR2 ++ (tailR3 ++ (tailR4 ++ (tailR5 ++ (tailR6 ++ (tailR7 ++ tailR8))))))

/-- A property of every operation of two lists holds of every operation of their concatenation. -/
theorem forall_append {α : Type _} {p : α → Prop} {l₁ l₂ : List α} (h₁ : l₁.Forall p) (h₂ : l₂.Forall p) : (l₁ ++ l₂).Forall p :=
  List.forall_iff_forall_mem.mpr fun a ha => (List.mem_append.mp ha).elim
    (List.forall_iff_forall_mem.mp h₁ a) (List.forall_iff_forall_mem.mp h₂ a)

/-- Every operation of the tail touches TensorCore references only: stretch by stretch. -/
theorem tailR_sub : (tailR : List (HloOp τ sig (Elt F))).Forall fun op => op.bufs ⊆ tcRefs τ sig :=
  forall_append tailR1_sub (forall_append tailR2_sub (forall_append tailR3_sub (forall_append tailR4_sub
    (forall_append tailR5_sub (forall_append tailR6_sub (forall_append tailR7_sub tailR8_sub))))))

end Cert.ReferenceIdeal.Hand

end
-- ==== Proof.RefRun.lean ====
/-
  The reference's @main as one straight line of host operations, and its run read back: the first twenty
  operations (the membership mask) as the list `frontR`, the remaining operations (calls inlined) as `tailR`;
  @main is the sequence of their concatenation, and every weakly fair execution ends with each buffer at the
  fold of the operations' results over the launch contents.
-/
import proofs.«164438_j40630390620888_1_alg».proof.Proof.RefMask
import proofs.«164438_j40630390620888_1_alg».proof.Proof.RefTail
import proofs.«164438_j40630390620888_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Statements 1–20 of @main, in order: the centres broadcast over the batch, the two squared norms, the inner
    products, the keepdims broadcasts, `(|x|^2 + |c|^2) - 2 <c, x>`, and the comparison with the squared radius. -/
abbrev frontR : List (HloOp τ sig (Elt F)) :=
  [ StableHlo.unary main_arg1 main_v0 (broadcastInDim S128x27x3 ![0, 1, 2] bcast_S1x27x3_S128x27x3_0_1_2 : (⟨S1x27x3, .f32⟩ : BufTy).Contents (Elt F) → (⟨S128x27x3, .f32⟩ : BufTy).Contents (Elt F)),
    StableHlo.binary main_arg0 main_arg0 main_v1 (mulf : (⟨S128x8192x3, .f32⟩ : BufTy).Contents (Elt F) → (⟨S128x8192x3, .f32⟩ : BufTy).Contents (Elt F) → (⟨S128x8192x3, .f32⟩ : BufTy).Contents (Elt F)),
    StableHlo.nullary main_cst (constant S_ .f32 0x00000000#32),
    StableHlo.binary main_v1 main_cst main_v2 ((fun x v => Host.reduceAdd x v reducesTo_S128x8192x3_S128x8192_d2 h_S_) : (⟨S128x8192x3, .f32⟩ : BufTy).Contents (Elt F) → (⟨S_, .f32⟩ : BufTy).Contents (Elt F) → (⟨S128x8192, .f32⟩ : BufTy).Contents (Elt F)),
    StableHlo.binary main_v0 main_v0 main_v3 (mulf : (⟨S128x27x3, .f32⟩ : BufTy).Contents (Elt F) → (⟨S128x27x3, .f32⟩ : BufTy).Contents (Elt F) → (⟨S128x27x3, .f32⟩ : BufTy).Contents (Elt F)),
    StableHlo.nullary main_cst_0 (constant S_ .f32 0x00000000#32),
    StableHlo.binary main_v3 main_cst_0 main_v4 ((fun x v => Host.reduceAdd x v reducesTo_S128x27x3_S128x27_d2 h_S_) : (⟨S128x27x3, .f32⟩ : BufTy).Contents (Elt F) → (⟨S_, .f32⟩ : BufTy).Contents (Elt F) → (⟨S128x27, .f32⟩ : BufTy).Contents (Elt F)),
    StableHlo.binary main_v0 main_arg0 main_v5 ((fun l r => Host.dotGeneral dot_S128x27x3_S128x8192x3_S128x27x8192_2_2_1_1_0_0 none l r) : (⟨S128x27x3, .f32⟩ : BufTy).Contents (Elt F) → (⟨S128x8192x3, .f32⟩ : BufTy).Contents (Elt F) → (⟨S128x27x8192, .f32⟩ : BufTy).Contents (Elt F)),
    StableHlo.unary main_v2 main_v6 (broadcastInDim S128x1x8192 ![0, 2] bcast_S128x8192_S128x1x8192_0_2 : (⟨S128x8192, .f32⟩ : BufTy).Contents (Elt F) → (⟨S128x1x8192, .f32⟩ : BufTy).Contents (Elt F)),
    StableHlo.unary main_v4 main_v7 (broadcastInDim S128x27x1 ![0, 1] bcast_S128x27_S128x27x1_0_1 : (⟨S128x27, .f32⟩ : BufTy).Contents (Elt F) → (⟨S128x27x1, .f32⟩ : BufTy).Contents (Elt F)),
    StableHlo.unary main_v6 main_v8 (broadcastInDim S128x27x8192 ![0, 1, 2] bcast_S128x1x8192_S128x27x8192_0_1_2 : (⟨S128x1x8192, .f32⟩ : BufTy).Contents (Elt F) → (⟨S128x27x8192, .f32⟩ : BufTy).Contents (Elt F)),
    StableHlo.unary main_v7 main_v9 (broadcastInDim S128x27x8192 ![0, 1, 2] bcast_S128x27x1_S128x27x8192_0_1_2 : (⟨S128x27x1, .f32⟩ : BufTy).Contents (Elt F) → (⟨S128x27x8192, .f32⟩ : BufTy).Contents (Elt F)),
    StableHlo.binary main_v8 main_v9 main_v10 (addf : (⟨S128x27x8192, .f32⟩ : BufTy).Contents (Elt F) → (⟨S128x27x8192, .f32⟩ : BufTy).Contents (Elt F) → (⟨S128x27x8192, .f32⟩ : BufTy).Contents (Elt F)),
    StableHlo.nullary main_cst_1 (constant S_ .f32 0x40000000#32),
    StableHlo.unary main_cst_1 main_v11 (broadcastInDim S128x27x8192 ![] bcast_S_S128x27x8192 : (⟨S_, .f32⟩ : BufTy).Contents (Elt F) → (⟨S128x27x8192, .f32⟩ : BufTy).Contents (Elt F)),
    StableHlo.binary main_v11 main_v5 main_v12 (mulf : (⟨S128x27x8192, .f32⟩ : BufTy).Contents (Elt F) → (⟨S128x27x8192, .f32⟩ : BufTy).Contents (Elt F) → (⟨S128x27x8192, .f32⟩ : BufTy).Contents (Elt F)),
    StableHlo.binary main_v10 main_v12 main_v13 (subf : (⟨S128x27x8192, .f32⟩ : BufTy).Contents (Elt F) → (⟨S128x27x8192, .f32⟩ : BufTy).Contents (Elt F) → (⟨S128x27x8192, .f32⟩ : BufTy).Contents (Elt F)),
    StableHlo.nullary main_cst_2 (constant S_ .f32 0x3D800000#32),
    StableHlo.unary main_cst_2 main_v14 (broadcastInDim S128x27x8192 ![] bcast_S_S128x27x8192 : (⟨S_, .f32⟩ : BufTy).Contents (Elt F) → (⟨S128x27x8192, .f32⟩ : BufTy).Contents (Elt F)),
    StableHlo.binary main_v13 main_v14 main_v15 (cmpf .olt : (⟨S128x27x8192, .f32⟩ : BufTy).Contents (Elt F) → (⟨S128x27x8192, .f32⟩ : BufTy).Contents (Elt F) → (⟨S128x27x8192, .i1⟩ : BufTy).Contents (Elt F)) ]

theorem frontR_sub : (frontR : List (HloOp τ sig (Elt F))).Forall fun op => op.bufs ⊆ tcRefs τ sig :=
  ⟨unary_bufs_sub .., binary_bufs_sub .., nullary_bufs_sub .., binary_bufs_sub .., binary_bufs_sub .., nullary_bufs_sub ..,
    binary_bufs_sub .., binary_bufs_sub .., unary_bufs_sub .., unary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub ..⟩

/-- No operation of the front determines a result by allocation. -/
theorem frontR_fresh : ∀ op ∈ (frontR : List (HloOp τ sig (Elt F))), op.fresh = ∅ := by
  intro _ h; (repeat (cases h with | head => rfl | tail _ h => ?_)); exact nomatch h

/-- The front's last buffer holds the mask of the two argument arrays. -/
theorem front_mask (W : Valuation τ sig (Elt F)) :
    after frontR W (Proc.devRef .tc main_v15) = maskR (W (Proc.devRef .tc main_arg0)) (W (Proc.devRef .tc main_arg1)) := by
  after_results
  rfl

/-- The front's first buffer holds the centres repeated for each batch. -/
theorem front_v0 (W : Valuation τ sig (Elt F)) :
    after frontR W (Proc.devRef .tc main_v0) = broadcastInDim S128x27x3 ![0, 1, 2] bcast_S1x27x3_S128x27x3_0_1_2 (W (Proc.devRef .tc main_arg1)) := by
  after_results

theorem front_arg0 (W : Valuation τ sig (Elt F)) :
    after frontR W (Proc.devRef .tc main_arg0) = W (Proc.devRef .tc main_arg0) := by
  after_results

theorem front_arg1 (W : Valuation τ sig (Elt F)) :
    after frontR W (Proc.devRef .tc main_arg1) = W (Proc.devRef .tc main_arg1) := by
  after_results

/-! ## The tail: no allocation, and the arguments untouched -/

/-- A literal list's operations each determine their results: one case per operation. -/
local macro "fresh_cases" : tactic =>
  `(tactic| (intro _ h; (repeat (cases h with | head => rfl | tail _ h => ?_)); exact nomatch h))

theorem tailR1_fresh : ∀ op ∈ (tailR1 : List (HloOp τ sig (Elt F))), op.fresh = ∅ := by fresh_cases
theorem tailR2_fresh : ∀ op ∈ (tailR2 : List (HloOp τ sig (Elt F))), op.fresh = ∅ := by fresh_cases
theorem tailR3_fresh : ∀ op ∈ (tailR3 : List (HloOp τ sig (Elt F))), op.fresh = ∅ := by fresh_cases
theorem tailR4_fresh : ∀ op ∈ (tailR4 : List (HloOp τ sig (Elt F))), op.fresh = ∅ := by fresh_cases
theorem tailR5_fresh : ∀ op ∈ (tailR5 : List (HloOp τ sig (Elt F))), op.fresh = ∅ := by fresh_cases
theorem tailR6_fresh : ∀ op ∈ (tailR6 : List (HloOp τ sig (Elt F))), op.fresh = ∅ := by fresh_cases
theorem tailR7_fresh : ∀ op ∈ (tailR7 : List (HloOp τ sig (Elt F))), op.fresh = ∅ := by fresh_cases
theorem tailR8_fresh : ∀ op ∈ (tailR8 : List (HloOp τ sig (Elt F))), op.fresh = ∅ := by fresh_cases

/-- No operation of the tail determines a result by allocation: stretch by stretch. -/
theorem tailR_fresh : ∀ op ∈ (tailR : List (HloOp τ sig (Elt F))), op.fresh = ∅ := by
  intro op h
  simp only [tailR, List.mem_append] at h
  rcases h with h | h | h | h | h | h | h | h
  exacts [tailR1_fresh op h, tailR2_fresh op h, tailR3_fresh op h, tailR4_fresh op h, tailR5_fresh op h,
    tailR6_fresh op h, tailR7_fresh op h, tailR8_fresh op h]

set_option maxHeartbeats 1000000 in
/-- No operation of the tail writes the first argument. -/
theorem tail_arg0 (W : Valuation τ sig (Elt F)) :
    after tailR W (Proc.devRef .tc main_arg0) = W (Proc.devRef .tc main_arg0) :=
  after_of_forall_not_mem (b := Proc.devRef .tc main_arg0) _ _ (List.forall_iff_forall_mem.mp (by
    simp only [tailR, tailR1, tailR2, tailR3, tailR4, tailR5, tailR6, tailR7, tailR8, List.cons_append, List.nil_append,
      List.Forall, nullary_writes, unary_writes, binary_writes, ternary_writes, quaternary_writes,
      reshape_writes, nary_writes, Finset.mem_singleton]
    repeat' apply And.intro
    all_goals exact devRef_ne_of_ne (by decide)))

set_option maxHeartbeats 1000000 in
/-- No operation of the tail writes the second argument. -/
theorem tail_arg1 (W : Valuation τ sig (Elt F)) :
    after tailR W (Proc.devRef .tc main_arg1) = W (Proc.devRef .tc main_arg1) :=
  after_of_forall_not_mem (b := Proc.devRef .tc main_arg1) _ _ (List.forall_iff_forall_mem.mp (by
    simp only [tailR, tailR1, tailR2, tailR3, tailR4, tailR5, tailR6, tailR7, tailR8, List.cons_append, List.nil_append,
      List.Forall, nullary_writes, unary_writes, binary_writes, ternary_writes, quaternary_writes,
      reshape_writes, nary_writes, Finset.mem_singleton]
    repeat' apply And.intro
    all_goals exact devRef_ne_of_ne (by decide)))

/-! ## @main as the straight line, and its run -/

set_option maxRecDepth 8192 in
/-- @main is the straight line of the front's operations then the tail's: once the outlined functions' bodies are
    unfolded at their calls over the calls' buffer records and the sequencing is reassociated, both sides are one
    chain of the same 102 host steps, by computation. -/
theorem main_eq (c : Dev nD) : main (F := F) c = seq (frontR ++ tailR) := by
  chain_rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates, and every final state has each buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (frontR ++ tailR) (launchContents m c) (b : DevRef τ sig) :=
  run_seq scopedRefs_eq scopedSems_eq defs main (fun _ => frontR ++ tailR) main_eq
    (fun _ => List.forall_append.mpr ⟨frontR_sub, tailR_sub⟩) m ρ
    (fun _ op h => (List.mem_append.mp h).elim (frontR_fresh op) (tailR_fresh op))

end Cert.ReferenceIdeal.Hand

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.KPayAt.lean ====
/-
  The kernel's stored value read at one index. The kernel body forms, from a block of points `x0 : [1, 8192, 3]` and
  the centres `x1 : [1, 27, 3]`, the three lane sums |x_n|^2 = ∑_d x0(0,n,d)^2, |c_p|^2 = ∑_d x1(0,p,d)^2 and
  <c_p, x_n> = ∑_d x1(0,p,d) * x0(0,n,d) (each a sum along the coordinate axis of an entrywise product of arrays obtained
  from the two blocks by unit-axis casts and repetitions), then the bit of (|x_n|^2 + |c_p|^2) - 2 <c_p, x_n> < 1/16 widened
  to 32 bits, as a `[1, 27, 8192]` array. Here:

  • three layout steps at rank 3 read at coordinates (an `[a, c]` array viewed as `[a, 1, c]`; an `[a, 1, c]` and a
    `[1, b, c]` array repeated to `[a, b, c]`), and the sum of an `[a, b, c]` array along its last axis as a sum over
    `Fin c`;
  • the three sums at `(p, n)` (`xsq_apply`, `csq_apply`, `dot_apply`), each stated over arbitrary witnesses of its
    shape facts;
  • `pay_apply`: the stored value at `(0, p, n)`.
-/
import proofs.«164438_j40630390620888_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«164438_j40630390620888_1_alg».proof.Proof.LibKeepdims

noncomputable section

namespace Cert.KernelIdeal.Hand

open Cert.KernelIdeal Cert.KernelIdeal.Facts₀ Cert.KernelIdeal.Gen Idealize.ShloMosaic Idealize.ShloMosaic.ValueIdx
open scoped BigOperators

section Layout
variable {α : Type}

/-- An `[a, c]` array cast to `[a, 1, c]` reads, at `(i, u, k)`, the operand at `(i, k)`, whatever the unit coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(p, n, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, n, d)`, the operand's one slab at `(n, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (n : Fin b) (d : Fin c) :
    broadcastTo ⟨3, ![a, b, c]⟩ v h (ix3 p n d) = v (ix3 (0 : Fin 1) n d) := by
  refine broadcastTo_apply v h (ix3 p n d) (ix3 (0 : Fin 1) n d) fun ax => ?_
  match ax with
  | ⟨0, _⟩ => rfl
  | ⟨1, _⟩ =>
    show n.val = if b = 1 then 0 else n.val
    split
    · have := n.isLt; omega
    · rfl
  | ⟨2, _⟩ =>
    show d.val = if c = 1 then 0 else d.val
    split
    · have := d.isLt; omega
    · rfl

end Layout

/-- At the extended reals, the sum of an `[a, b, c]` array along its last axis (started from the zero word) reads, at
    `(p, n)`, the sum over `d` of the entries `(p, n, d)`. -/
theorem laneSum3_apply {a b c : ℕ} (src : FVec Ideal ⟨3, ![a, b, c]⟩ .f32)
    (h : (⟨3, ![a, b, c]⟩ : Shape).Reduces [2] ⟨2, ![a, b]⟩)
    (hφ : FKind.Formats FTy.f32) (hacc : (0x00000000#32 : BitVec 32) = 0x00000000#32) (p : Fin a) (n : Fin b) :
    multiReduction (F := Ideal) .add [2] ⟨2, ![a, b]⟩ src 0x00000000#32 h hφ hacc (ix2 p n) = ∑ d : Fin c, src (ix3 p n d) :=
  (Ideal.multiReduction_add_single src 0x00000000#32 h hφ hacc (ix2 p n)).trans
    (Finset.sum_congr rfl fun k _ => congrArg src (funext fun ax => Fin.ext (by
      match ax with
      | ⟨0, _⟩ => rfl
      | ⟨1, _⟩ => rfl
      | ⟨2, _⟩ => rfl)))

/-- The squared norm of point `n`, as the kernel forms it: the block with its unit axis dropped, squared entrywise,
    summed along the coordinate axis, viewed as a `[1, 8192]` row and repeated over the 27 rows, reads at `(p, n)`
    the sum over the three coordinates of `x0 (0, n, d) ^ 2`. -/
theorem xsq_apply (x0 : Vec Ideal S1x8192x3 .f32)
    (hc : S1x8192x3.ShapeCasts S8192x3) (hr : S8192x3.Reduces [1] S8192) (hφ : FKind.Formats FTy.f32)
    (hacc : (0x00000000#32 : BitVec 32) = 0x00000000#32) (hc' : S8192.ShapeCasts S1x8192)
    (hb : S1x8192.Broadcasts S27x8192) (p : Fin 27) (n : Fin 8192) :
    broadcastTo S27x8192 (shapeCast S1x8192 (multiReduction (F := Ideal) .add [1] S8192
        (mulf (shapeCast S8192x3 x0 hc : FVec Ideal S8192x3 .f32) (shapeCast S8192x3 x0 hc : FVec Ideal S8192x3 .f32))
        0x00000000#32 hr hφ hacc) hc') hb (ix2 p n)
      = ∑ d : Fin 3, x0 (ix3 0 n d) * x0 (ix3 0 n d) := by
  refine (broadcastTo_1b_ab_apply _ hb p n).trans ?_
  refine (shapeCast_a_1a_apply _ hc' 0 n).trans ?_
  refine (Cert.Keepdims.rowSum_apply _ hr hφ hacc n).trans ?_
  refine Finset.sum_congr rfl fun d _ => ?_
  rw [mulf_apply, shapeCast_1ab_ab_apply]

/-- The squared norm of centre `p`, as the kernel forms it: the centres with their unit axis dropped, squared entrywise,
    summed along the coordinate axis, viewed as a `[27, 1]` column and repeated over the 8192 columns, reads at `(p, n)`
    the sum over the three coordinates of `x1 (0, p, d) ^ 2`. -/
theorem csq_apply (x1 : Vec Ideal S1x27x3 .f32)
    (hc : S1x27x3.ShapeCasts S27x3) (hr : S27x3.Reduces [1] S27) (hφ : FKind.Formats FTy.f32)
    (hacc : (0x00000000#32 : BitVec 32) = 0x00000000#32) (hc' : S27.ShapeCasts S27x1)
    (hb : S27x1.Broadcasts S27x8192) (p : Fin 27) (n : Fin 8192) :
    broadcastTo S27x8192 (shapeCast S27x1 (multiReduction (F := Ideal) .add [1] S27
        (mulf (shapeCast S27x3 x1 hc : FVec Ideal S27x3 .f32) (shapeCast S27x3 x1 hc : FVec Ideal S27x3 .f32))
        0x00000000#32 hr hφ hacc) hc') hb (ix2 p n)
      = ∑ d : Fin 3, x1 (ix3 0 p d) * x1 (ix3 0 p d) := by
  refine (Cert.Keepdims.broadcastTo_a1_ab_apply _ hb p n).trans ?_
  refine (Cert.Keepdims.shapeCast_a_a1_apply _ hc' p 0).trans ?_
  refine (Cert.Keepdims.rowSum_apply _ hr hφ hacc p).trans ?_
  refine Finset.sum_congr rfl fun d _ => ?_
  rw [mulf_apply, shapeCast_1ab_ab_apply]

/-- The inner product of centre `p` with point `n`, as the kernel forms it: the centres as `[27, 1, 3]` and the
    points as `[1, 8192, 3]`, both repeated to `[27, 8192, 3]`, multiplied entrywise and summed along the coordinate
    axis, reads at `(p, n)` the sum over the three coordinates of `x1 (0, p, d) * x0 (0, n, d)`. -/
theorem dot_apply (x0 : Vec Ideal S1x8192x3 .f32) (x1 : Vec Ideal S1x27x3 .f32)
    (hc0 : S1x8192x3.ShapeCasts S8192x3) (hc1 : S1x27x3.ShapeCasts S27x3)
    (hc1' : S27x3.ShapeCasts S27x1x3) (hc0' : S8192x3.ShapeCasts S1x8192x3)
    (hb1 : S27x1x3.Broadcasts S27x8192x3) (hb0 : S1x8192x3.Broadcasts S27x8192x3)
    (hr : S27x8192x3.Reduces [2] S27x8192) (hφ : FKind.Formats FTy.f32)
    (hacc : (0x00000000#32 : BitVec 32) = 0x00000000#32) (p : Fin 27) (n : Fin 8192) :
    multiReduction (F := Ideal) .add [2] S27x8192
        (mulf
          (broadcastTo S27x8192x3 (shapeCast S27x1x3 (shapeCast S27x3 x1 hc1 : FVec Ideal S27x3 .f32) hc1') hb1
            : FVec Ideal S27x8192x3 .f32)
          (broadcastTo S27x8192x3 (shapeCast S1x8192x3 (shapeCast S8192x3 x0 hc0 : FVec Ideal S8192x3 .f32) hc0') hb0
            : FVec Ideal S27x8192x3 .f32))
        0x00000000#32 hr hφ hacc (ix2 p n)
      = ∑ d : Fin 3, x1 (ix3 0 p d) * x0 (ix3 0 n d) := by
  refine (laneSum3_apply _ hr hφ hacc p n).trans ?_
  refine Finset.sum_congr rfl fun d _ => ?_
  rw [mulf_apply, broadcastTo_a1c_abc_apply, shapeCast_ac_a1c_apply, shapeCast_1ab_ab_apply,
    broadcastTo_1bc_abc_apply, shapeCast_ab_1ab_apply, shapeCast_1ab_ab_apply]

/-- THE KERNEL'S PAYLOAD AT `(0, p, n)`: the bit of `(|x_n|^2 + |c_p|^2) - 2 <c_p, x_n> < 1/16`, widened to 32 bits. -/
theorem pay_apply [Cert.KernelIdeal.Facts] (x0 : Vec Ideal S1x8192x3 .f32) (x1 : Vec Ideal S1x27x3 .f32) (p : Fin 27) (n : Fin 8192) :
      Gen.k0_pay1 (F := Ideal) x0 x1 (ix3 0 p n)
        = (Ideal.cmp .olt
            (((∑ d : Fin 3, x0 (ix3 0 n d) * x0 (ix3 0 n d)) + (∑ d : Fin 3, x1 (ix3 0 p d) * x1 (ix3 0 p d)))
              - Ideal.ofBits .f32 0x40000000#32 * ∑ d : Fin 3, x1 (ix3 0 p d) * x0 (ix3 0 n d))
            (Ideal.ofBits .f32 0x3D800000#32)).setWidth 32 := by
  unfold Gen.k0_pay1
  refine (shapeCast_ab_1ab_apply _ _ 0 p n).trans ?_
  rw [extui_apply, cmpf_apply, subf_apply, addf_apply, mulf_apply, broadcast_apply, broadcast_apply, Ideal.cmpf_def]
  rw [xsq_apply, csq_apply, dot_apply]
  rfl

end Cert.KernelIdeal.Hand

end
-- ==== Proof.Spec.lean ====
/-
  The ball-query membership bit, stated once over plain coordinates, independent of either program's text.
  For a batch b, a centre p and a point n the squared distance is expanded as
      |x_n|^2 + |c_p|^2 - 2 * <c_p, x_n>
  with each of the three terms a sum over the three space coordinates; the bit says whether that
  number lies below the squared radius (the f32 word 0x3D800000, i.e. 1/16). The factor 2 is the f32
  word 0x40000000. Both words are kept as patterns: each program carries the same pattern, so their
  values are never needed.
-/
import Idealize.ShloMosaic.PureOps.Ideal
import Idealize.ShloMosaic.Lib.ValueIdx

noncomputable section

namespace Cert.Spec

open Idealize.ShloMosaic Idealize.ShloMosaic.ValueIdx

/-- The point cloud: 128 batches of 8192 points with 3 coordinates. -/
abbrev SX : Shape := ⟨3, ![128, 8192, 3]⟩
/-- The 27 ball centres with 3 coordinates (one leading unit axis). -/
abbrev SC : Shape := ⟨3, ![1, 27, 3]⟩
/-- One bit per (batch, centre, point). -/
abbrev SM : Shape := ⟨3, ![128, 27, 8192]⟩

/-- Squared norm of point n of batch b. -/
def xx (x : SX.Idx → EReal) (b : Fin 128) (n : Fin 8192) : EReal := ∑ d : Fin 3, x (ix3 b n d) * x (ix3 b n d)
/-- Squared norm of centre p. -/
def cc2 (c : SC.Idx → EReal) (p : Fin 27) : EReal := ∑ d : Fin 3, c (ix3 0 p d) * c (ix3 0 p d)
/-- Inner product of centre p with point n of batch b. -/
def xc (x : SX.Idx → EReal) (c : SC.Idx → EReal) (b : Fin 128) (p : Fin 27) (n : Fin 8192) : EReal :=
  ∑ d : Fin 3, c (ix3 0 p d) * x (ix3 b n d)

/-- The squared distance, in the grouping both programs use: (|x|^2 + |c|^2) - 2 <c, x>. -/
def dist2 (x : SX.Idx → EReal) (c : SC.Idx → EReal) (b : Fin 128) (p : Fin 27) (n : Fin 8192) : EReal :=
  (xx x b n + cc2 c p) - Ideal.ofBits .f32 0x40000000#32 * xc x c b p n

/-- Whether point n of batch b lies strictly inside the ball around centre p. -/
def bit (x : SX.Idx → EReal) (c : SC.Idx → EReal) (b : Fin 128) (p : Fin 27) (n : Fin 8192) : BitVec 1 :=
  Ideal.cmp .olt (dist2 x c b p n) (Ideal.ofBits .f32 0x3D800000#32)

/-- The membership bits as one array over (batch, centre, point). -/
def mask1 (x : SX.Idx → EReal) (c : SC.Idx → EReal) : SM.Idx → BitVec 1 :=
  fun j => bit x c (j 0) (j 1) (j 2)

theorem mask1_apply (x : SX.Idx → EReal) (c : SC.Idx → EReal) (b : Fin 128) (p : Fin 27) (n : Fin 8192) :
    mask1 x c (ix3 b p n) = bit x c b p n := rfl

end Cert.Spec

end
-- ==== Proof.KValue.lean ====
/-
  What the kernel's region leaves in its result array, at the exact reals: the membership words of the whole
  [128, 27, 8192] array as ONE function of the two argument arrays.

  Grid point t handles batch t: its block of the point cloud is rows (t, ·, ·), its block of the centres the
  whole centres array, and the block it writes back is rows (t, ·, ·) of the result. The body's value at (0, p, n)
  of that block is the 32-bit widening of the comparison |x_n|^2 + |c_p|^2 - 2 <c_p, x_n> < r^2 over the block's
  entries; read through the blocks' embeddings these are the entries (t, n, ·) of the point cloud and (0, p, ·) of
  the centres, so the block is rows (t, ·, ·) of the widened membership array. The 128 blocks tile the result
  array (index (b, p, n) lies in block b), so the array ends holding that function everywhere.
-/
import proofs.«164438_j40630390620888_1_alg».proof.Proof.KFrame
import proofs.«164438_j40630390620888_1_alg».proof.Proof.KPayAt
import proofs.«164438_j40630390620888_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl

/-- The membership words of the whole array: the membership bit widened to 32 bits, index by index. -/
def maskWords (x : S128x8192x3.Idx → EReal) (cc : S1x27x3.Idx → EReal) : S128x27x8192.Idx → BitVec 32 :=
  fun i => (Cert.Spec.mask1 x cc i).setWidth 32

/-- The index maps over the grid: point t reads batch t of the point cloud, the one block of centres, and writes
    batch t of the result. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Batch t's points, as a block of literal type. -/
abbrev xblk (c : Dev nD) (t : Fin cfg0.N) : Vec Ideal S1x8192x3 .f32 := iblk m c 0 t
/-- The centres, as a block of literal type. -/
abbrev cblk (c : Dev nD) (t : Fin cfg0.N) : Vec Ideal S1x27x3 .f32 := iblk m c 1 t
/-- The point cloud and the centres as the region finds them, at their literal types. -/
abbrev xarr (c : Dev nD) : S128x8192x3.Idx → EReal := V m c main_arg0
abbrev carr (c : Dev nD) : S1x27x3.Idx → EReal := V m c main_arg1

/-- Point t as a batch number. -/
def batch (t : Fin cfg0.N) : Fin 128 := ⟨t.val, by have := t.isLt; have h : cfg0.N = 128 := N_0; omega⟩

/-- Entry (0, n, d) of batch t's block is entry (t, n, d) of the point cloud. -/
theorem xblk_apply (c : Dev nD) (t : Fin cfg0.N) (n : Fin 8192) (d : Fin 3) :
    xblk m c t (ix3 0 n d) = xarr m c (ix3 (batch t) n d) := by
  obtain ⟨e0, e1, e2, -⟩ := idx_facts t
  show V m c main_arg0 (((cfg0.win 0).blk t).view.emb (ix3 0 n d)) = V m c main_arg0 (ix3 (batch t) n d)
  refine congrArg _ ?_
  funext a; apply Fin.ext
  match a with
  | ⟨0, _⟩ => show win0_0.index t (0 : Fin 3) * 1 + 1 * 0 = t.val; omega
  | ⟨1, _⟩ => show win0_0.index t (1 : Fin 3) * 8192 + 1 * n.val = n.val; omega
  | ⟨2, _⟩ => show win0_0.index t (2 : Fin 3) * 3 + 1 * d.val = d.val; omega

/-- Entry (0, p, d) of the centres' block is entry (0, p, d) of the centres. -/
theorem cblk_apply (c : Dev nD) (t : Fin cfg0.N) (p : Fin 27) (d : Fin 3) :
    cblk m c t (ix3 0 p d) = carr m c (ix3 0 p d) := by
  obtain ⟨-, -, -, e0, e1, e2, -⟩ := idx_facts t
  show V m c main_arg1 (((cfg0.win 1).blk t).view.emb (ix3 0 p d)) = V m c main_arg1 (ix3 0 p d)
  refine congrArg _ ?_
  funext a; apply Fin.ext
  match a with
  | ⟨0, _⟩ => show win0_1.index t (0 : Fin 3) * 1 + 1 * 0 = 0; omega
  | ⟨1, _⟩ => show win0_1.index t (1 : Fin 3) * 27 + 1 * p.val = p.val; omega
  | ⟨2, _⟩ => show win0_1.index t (2 : Fin 3) * 3 + 1 * d.val = d.val; omega

/-- Entry (0, p, n) of the block point t writes back sits at (t, p, n) of the result array. -/
theorem oblk_emb (t : Fin cfg0.N) (p : Fin 27) (n : Fin 8192) :
    ((cfg0.win 2).blk t).view.emb (ix3 0 p n) = ix3 (batch t) p n := by
  obtain ⟨-, -, -, -, -, -, e0, e1, e2⟩ := idx_facts t
  funext a; apply Fin.ext
  match a with
  | ⟨0, _⟩ => show win0_2.index t (0 : Fin 3) * 1 + 1 * 0 = t.val; omega
  | ⟨1, _⟩ => show win0_2.index t (1 : Fin 3) * 27 + 1 * p.val = p.val; omega
  | ⟨2, _⟩ => show win0_2.index t (2 : Fin 3) * 8192 + 1 * n.val = n.val; omega

/-- The body's value over batch t's blocks, at (0, p, n), is the membership word (t, p, n) of the arrays. -/
theorem pay_at (c : Dev nD) (t : Fin cfg0.N) (p : Fin 27) (n : Fin 8192) :
    k0_pay1 (F := Ideal) (xblk m c t) (cblk m c t) (ix3 0 p n) = maskWords (xarr m c) (carr m c) (ix3 (batch t) p n) := by
  refine (pay_apply (xblk m c t) (cblk m c t) p n).trans ?_
  simp only [xblk_apply, cblk_apply]
  rfl

/-- WHAT POINT t WRITES BACK is block t of the membership words of the arrays as the region finds them. -/
theorem flushed_eq (c : Dev nD) (t : Fin cfg0.N) :
    (dats m 0 c).flushed 2 t = ((cfg0.win 2).blk t).view.read (Elt Ideal) (maskWords (xarr m c) (carr m c)) := by
  show (cfg0.win 2).cut (grid0.coords t) ((dats m 0 c).after 2 t) = _
  rw [after0_2]
  unfold maskBlock
  rw [View.canon_unit_zero hz3]
  simp only [View.ld_unit_zero (S := S1x8192x3) hz3, View.ld_unit_zero (S := S1x27x3) hz3]
  funext j
  obtain ⟨p, n, rfl⟩ : ∃ (p : Fin 27) (n : Fin 8192), j = ix3 0 p n := by
    refine ⟨j 1, j 2, ?_⟩
    funext a; apply Fin.ext
    match a with
    | ⟨0, _⟩ => have h : (j 0).val < 1 := (j 0).isLt; show (j 0).val = 0; omega
    | ⟨1, _⟩ => rfl
    | ⟨2, _⟩ => rfl
  show k0_pay1 (F := Ideal) (xblk m c t) (cblk m c t) (ix3 0 p n) = maskWords (xarr m c) (carr m c) (((cfg0.win 2).blk t).view.emb (ix3 0 p n))
  rw [oblk_emb]
  exact pay_at m c t p n

/-- Index (b, p, n) of the result lies in the block of point b. -/
theorem cover (i : S128x27x8192.Idx) :
    ∃ t : Fin cfg0.N, (cfg0.win 2).flush t = true ∧ i ∈ ((cfg0.win 2).blk t).view.set := by
  have h0 : (i 0).val < 128 := (i 0).isLt
  have h1 : (i 1).val < 27 := (i 1).isLt
  have h2 : (i 2).val < 8192 := (i 2).isLt
  have hlt : (i 0).val < grid0.N := by rw [N_0]; exact h0
  obtain ⟨t, ht⟩ : ∃ t : Fin cfg0.N, t.val = (i 0).val := ⟨⟨(i 0).val, hlt⟩, rfl⟩
  refine ⟨t, flush0_2 t, ?_⟩
  obtain ⟨-, -, -, -, -, -, e0, e1, e2⟩ := idx_facts t
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 27 ≤ (i 1).val ∧ (i 1).val < win0_2.index t (1 : Fin 3) * 27 + 27; omega
  | ⟨2, _⟩ => show win0_2.index t (2 : Fin 3) * 8192 ≤ (i 2).val ∧ (i 2).val < win0_2.index t (2 : Fin 3) * 8192 + 8192; omega

/-- THE RESULT ARRAY of the region: the membership words of the argument arrays, everywhere. -/
theorem final2 (c : Dev nD) :
    (dats m 0 c).arrAt 2 cfg0.N = maskWords (m ((c : Thread nD τ).loc main_arg0)) (m ((c : Thread nD τ).loc main_arg1)) :=
  (dats m 0 c).arrAt_eq_of_cover 2 (maskWords (xarr m c) (carr m c)) (fun t _ => flushed_eq m c t) cover

end Cert.KernelIdeal.Hand

end
-- ==== Proof.RefMaskAt.lean ====
/-
  The reference's membership mask read at one index. At the ideal values every float is an extended real and
  every operation is exact, so the mask of RefMask.lean, evaluated at (batch b, centre p, point n), is the
  comparison
      (|x_{b,n}|^2 + |c_p|^2) - 2 * <c_p, x_{b,n}>  <  r^2
  with each of the three terms a sum over the three space coordinates: the membership bit of Spec.lean.
  The pieces, one lemma each: the centres repeated over the batches; the two squared norms, each a sum over the
  last axis from an initial value that is zero; the inner products, a batched contraction over one axis; the two
  keepdims broadcasts; the splat of a scalar constant. The two constants 2 and r^2 stay as their bit patterns.
-/
import proofs.«164438_j40630390620888_1_alg».proof.Proof.RefMask
import proofs.«164438_j40630390620888_1_alg».proof.Proof.Spec
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.Hand

open Idealize.ShloMosaic Idealize.ShloMosaic.ValueIdx Cert.ReferenceIdeal Cert.ReferenceIdeal.Facts₀

section Lemmas

variable [Cert.ReferenceIdeal.Facts]

/-- The centres repeated over the batches, read at (b, p, d): coordinate d of centre p, whatever the batch (the
    operand's leading axis has one entry, so every batch reads entry 0). -/
theorem centresB_apply (cc : S1x27x3.Idx → EReal) (b : Fin 128) (p : Fin 27) (d : Fin 3) :
    centresB (F := Ideal) cc (ix3 b p d) = cc (ix3 0 p d) := by
  unfold centresB
  exact broadcastInDim_apply _ _ cc (ix3 b p d) (ix3 0 p d) (fun a => by
    match a with
    | ⟨0, _⟩ => rfl
    | ⟨1, _⟩ => rfl
    | ⟨2, _⟩ => rfl)

/-- The squared norm of a point: the sum over the coordinate axis of x * x, from the initial value 0, read at
    (b, n), is the sum over d of x(b, n, d)^2. -/
theorem normX_apply (x : S128x8192x3.Idx → EReal) (b : Fin 128) (n : Fin 8192) :
    Host.reduceAdd (F := Ideal) (φ := .f32) (mulf (F := Ideal) (φ := .f32) x x) (constant (F := Ideal) S_ .f32 0x00000000#32)
        reducesTo_S128x8192x3_S128x8192_d2 h_S_ (ix2 b n) = Cert.Spec.xx x b n := by
  have h' := reducesTo_S128x8192x3_S128x8192_d2
  have h : S128x8192x3.Reduces [2] S128x8192 := ⟨h'.1, Nat.two_pos, h'.2⟩
  show Ideal.hostReduceAdd _ _ _ (ix2 b n) = _
  rw [Ideal.hostReduceAdd_single _ h]
  show Ideal.ofBits .f32 0x00000000#32 + _ = _
  rw [Ideal.ofBits_zero_f32, zero_add]
  unfold Cert.Spec.xx
  refine Finset.sum_congr rfl fun d _ => ?_
  -- the index (b, n) with d inserted on the summed axis is (b, n, d)
  have e : h.lift (ix2 b n) d = ix3 b n d := funext fun a => Fin.ext (by
    match a with
    | ⟨0, _⟩ => rfl
    | ⟨1, _⟩ => rfl
    | ⟨2, _⟩ => rfl)
  rw [e]; rfl

/-- The squared norm of a centre: the same sum over the repeated centres, read at (b, p), is the sum over d of
    c(p, d)^2, the same for every batch. -/
theorem normC_apply (cc : S1x27x3.Idx → EReal) (b : Fin 128) (p : Fin 27) :
    Host.reduceAdd (F := Ideal) (φ := .f32) (mulf (F := Ideal) (φ := .f32) (centresB (F := Ideal) cc) (centresB (F := Ideal) cc))
        (constant (F := Ideal) S_ .f32 0x00000000#32) reducesTo_S128x27x3_S128x27_d2 h_S_ (ix2 b p) = Cert.Spec.cc2 cc p := by
  have h' := reducesTo_S128x27x3_S128x27_d2
  have h : S128x27x3.Reduces [2] S128x27 := ⟨h'.1, Nat.two_pos, h'.2⟩
  show Ideal.hostReduceAdd _ _ _ (ix2 b p) = _
  rw [Ideal.hostReduceAdd_single _ h]
  show Ideal.ofBits .f32 0x00000000#32 + _ = _
  rw [Ideal.ofBits_zero_f32, zero_add]
  unfold Cert.Spec.cc2
  refine Finset.sum_congr rfl fun d _ => ?_
  -- stated over d : Fin 3, so that (b, p, d) is an index of the literal shape [128, 27, 3]
  have key : ∀ d : Fin 3, mulf (F := Ideal) (φ := .f32) (centresB (F := Ideal) cc) (centresB (F := Ideal) cc) (h.lift (ix2 b p) d)
      = cc (ix3 0 p d) * cc (ix3 0 p d) := fun d => by
    have e : h.lift (ix2 b p) d = ix3 b p d := funext fun a => Fin.ext (by
      match a with
      | ⟨0, _⟩ => rfl
      | ⟨1, _⟩ => rfl
      | ⟨2, _⟩ => rfl)
    rw [e, mulf_apply, centresB_apply]
  exact key d

/-- The inner products: the contraction of [128, 27, 3] with [128, 8192, 3] over the last axis of each, batched over
    the first, read at (b, p, n), is the sum over d of l(b, p, d) * x(b, n, d). The contraction shape has the one axis
    of extent 3; the sum over it is re-indexed by its one coordinate. -/
theorem dot_apply (l : FVec Ideal S128x27x3 .f32) (x : FVec Ideal S128x8192x3 .f32) (b : Fin 128) (p : Fin 27) (n : Fin 8192) :
    Host.dotGeneral (F := Ideal) (φ₁ := .f32) (φ₂ := .f32) dot_S128x27x3_S128x8192x3_S128x27x8192_2_2_1_1_0_0 none l x (ix3 b p n)
      = ∑ d : Fin 3, l (ix3 b p d) * x (ix3 b n d) := by
  show FloatOps.dotGeneral (F := Ideal) (φ₁ := .f32) (φ₂ := .f32) _ none _ l x (ix3 b p n) = _
  rw [Ideal.dotGeneral_apply,
    ← Equiv.sum_comp (contrEquiv1 dot_S128x27x3_S128x8192x3_S128x27x8192_2_2_1_1_0_0 3 rfl rfl).symm]
  refine Finset.sum_congr rfl fun d _ => ?_
  have c3 := contrEquiv1_symm_val dot_S128x27x3_S128x8192x3_S128x27x8192_2_2_1_1_0_0 3 rfl rfl d
  -- the left operand is read at (b, p, d): batch and centre from the result index, d from the contraction
  have l3 : dot_S128x27x3_S128x8192x3_S128x27x8192_2_2_1_1_0_0.lhsIdx (ix3 b p n)
      ((contrEquiv1 _ 3 rfl rfl).symm d) = ix3 b p d := by
    funext ax; apply Fin.ext
    match ax with
    | ⟨0, _⟩ => simp [DotDims.lhsIdx, dot_S128x27x3_S128x8192x3_S128x27x8192_2_2_1_1_0_0]; rfl
    | ⟨1, _⟩ => simp [DotDims.lhsIdx, dot_S128x27x3_S128x8192x3_S128x27x8192_2_2_1_1_0_0]; rfl
    | ⟨2, _⟩ => simp [DotDims.lhsIdx, dot_S128x27x3_S128x8192x3_S128x27x8192_2_2_1_1_0_0]; exact c3
  -- the right operand is read at (b, n, d): batch and point from the result index, d from the contraction
  have r3 : dot_S128x27x3_S128x8192x3_S128x27x8192_2_2_1_1_0_0.rhsIdx (ix3 b p n)
      ((contrEquiv1 _ 3 rfl rfl).symm d) = ix3 b n d := by
    funext ax; apply Fin.ext
    match ax with
    | ⟨0, _⟩ => simp [DotDims.rhsIdx, dot_S128x27x3_S128x8192x3_S128x27x8192_2_2_1_1_0_0]; rfl
    | ⟨1, _⟩ => simp [DotDims.rhsIdx, dot_S128x27x3_S128x8192x3_S128x27x8192_2_2_1_1_0_0]; rfl
    | ⟨2, _⟩ => simp [DotDims.rhsIdx, dot_S128x27x3_S128x8192x3_S128x27x8192_2_2_1_1_0_0]; exact c3
  rw [l3, r3]

/-- The point norms, kept as a unit centre axis and then repeated over the 27 centres, read at (b, p, n): the norm
    of point n of batch b. -/
theorem keepX_apply {α : Type} (v : S128x8192.Idx → α) (b : Fin 128) (p : Fin 27) (n : Fin 8192) :
    broadcastInDim S128x27x8192 ![0, 1, 2] bcast_S128x1x8192_S128x27x8192_0_1_2
      (broadcastInDim S128x1x8192 ![0, 2] bcast_S128x8192_S128x1x8192_0_2 v) (ix3 b p n) = v (ix2 b n) := by
  rw [broadcastInDim_apply _ _ _ (ix3 b p n) (ix3 b 0 n) (fun a => by
    match a with
    | ⟨0, _⟩ => rfl
    | ⟨1, _⟩ => rfl
    | ⟨2, _⟩ => rfl)]
  exact broadcastInDim_apply _ _ v (ix3 b 0 n) (ix2 b n) (fun a => by
    match a with
    | ⟨0, _⟩ => rfl
    | ⟨1, _⟩ => rfl)

/-- The centre norms, kept as a unit point axis and then repeated over the 8192 points, read at (b, p, n): the norm
    of centre p. -/
theorem keepC_apply {α : Type} (v : S128x27.Idx → α) (b : Fin 128) (p : Fin 27) (n : Fin 8192) :
    broadcastInDim S128x27x8192 ![0, 1, 2] bcast_S128x27x1_S128x27x8192_0_1_2
      (broadcastInDim S128x27x1 ![0, 1] bcast_S128x27_S128x27x1_0_1 v) (ix3 b p n) = v (ix2 b p) := by
  rw [broadcastInDim_apply _ _ _ (ix3 b p n) (ix3 b p 0) (fun a => by
    match a with
    | ⟨0, _⟩ => rfl
    | ⟨1, _⟩ => rfl
    | ⟨2, _⟩ => rfl)]
  exact broadcastInDim_apply _ _ v (ix3 b p 0) (ix2 b p) (fun a => by
    match a with
    | ⟨0, _⟩ => rfl
    | ⟨1, _⟩ => rfl)

/-- A rank-0 constant repeated over the whole [128, 27, 8192] array reads the constant's value everywhere. -/
theorem splat_apply (w : BitVec 32) (j : S128x27x8192.Idx) :
    broadcastInDim S128x27x8192 ![] bcast_S_S128x27x8192 (constant (F := Ideal) S_ .f32 w) j = Ideal.ofBits .f32 w := by
  rw [broadcastInDim_scalar_apply]; rfl

end Lemmas

/-- The reference's mask is the membership bit of the specification at every (batch, centre, point): at (b, p, n)
    both sides compare (|x_{b,n}|^2 + |c_p|^2) - 2 * <c_p, x_{b,n}> with r^2. -/
theorem maskR_eq [Cert.ReferenceIdeal.Facts] (x : (⟨S128x8192x3, .f32⟩ : BufTy).Contents (Elt Ideal)) (cc : (⟨S1x27x3, .f32⟩ : BufTy).Contents (Elt Ideal)) :
    maskR (F := Ideal) x cc = Cert.Spec.mask1 x cc := by
  funext j
  obtain ⟨b, p, n, rfl⟩ : ∃ (b : Fin 128) (p : Fin 27) (n : Fin 8192), j = ix3 b p n := ⟨j 0, j 1, j 2, eq_ix3 j⟩
  rw [Cert.Spec.mask1_apply]
  unfold maskR Cert.Spec.bit Cert.Spec.dist2 Cert.Spec.xc
  rw [cmpf_apply, Ideal.cmpf_def, subf_apply, addf_apply, mulf_apply, keepX_apply, keepC_apply, splat_apply, splat_apply,
    normX_apply, normC_apply, dot_apply]
  simp only [centresB_apply]

end Cert.ReferenceIdeal.Hand

end
-- ==== Proof.LibNary3.lean ====
/-
  `nary` over a literal family of THREE references, with each operand's contents at its own reference.
-/
import Idealize.ShloMosaic.Lib.StableHlo.Run

noncomputable section

namespace Idealize.ShloMosaic.StableHlo

variable {τ : Topo} {sig : RefSig} {Val : EltTy → Type}
variable {x a b y : Ref sig .tc}

/-- `nary` over a LITERAL family of three references (a `stablehlo.concatenate` of three operands, printed
    `nary ![x, a, b] …`): the result with each operand's contents AT ITS OWN REFERENCE — `Fin.cons (F ↑x) …` in place of
    `fun k => F ↑(![x, a, b] k)` —, so that rewriting goes on into the operands' contents: under the binder the
    reference `![x, a, b] k` is no literal and no result lemma applies to it. The two families agree at each of the
    three indices by computation. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` with the result reference un-indexed, for use as a `simp` lemma (the reference is reducible, and
    the discrimination tree would otherwise key the pattern on projections of a reference it has not yet matched). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.TailEq.lean ====
/-
  The kernel's host operations after its one launch and the reference's operations from its call of @cumsum on
  compute the same result from corresponding contents: the kernel's 32-bit mask being the reference's one-bit mask
  widened, the two argument arrays equal, and the reference's broadcast centres what the kernel recomputes.
  The two lines are compared in three stages, each at arbitrary contents: everything before the concatenate, the
  concatenate with the scatter over it, and the gather with the final subtraction.
-/
import proofs.«164438_j40630390620888_1_alg».proof.Proof.RefTail
import proofs.«164438_j40630390620888_1_alg».proof.Proof.Gen.KernelIdeal.Launch
import proofs.«164438_j40630390620888_1_alg».proof.Proof.LibNary3
import Idealize.ShloMosaic.Lib.StableHlo.Run

noncomputable section

namespace Cert.Hand

open Idealize.ShloMosaic Idealize.ShloMosaic.TcCoe Idealize.ShloMosaic.StableHlo

variable {F : FTy → Type} [FloatOps F] [Cert.KernelIdeal.Facts] [Cert.ReferenceIdeal.Facts]

/-- A one-bit word zero-extended to 32 bits is positive (signed) exactly when it is 1. -/
theorem sgt_zero_setWidth (b : BitVec 1) : IntOp.cmpi .sgt (b.setWidth 32) (0#32) = b := by
  revert b; decide

/-- Comparing the zero-extension of a one-bit array against the all-zero array, signed greater-than, gives the
    array back: pointwise, the fact above; the broadcast of a rank-0 constant reads the constant at every index. -/
theorem sgt_zero_extui {s : Shape} (M : s.Idx → BitVec 1) (h : 1 < 32)
    (hb : (⟨0, ![]⟩ : Shape).BroadcastsInDim s (![] : Fin 0 → Fin s.rank)) :
    cmpi .sgt (extui 32 M h) (broadcastInDim s ![] hb (constantI (⟨0, ![]⟩ : Shape) 32 0#32)) = M := by
  funext i
  exact sgt_zero_setWidth (M i)

/-- The contents after two operation lines in a row are the contents after the second, from the contents after the first. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

-- the reductions, the gather and the scatter are compared by their arguments only: neither side's equation looks inside them
attribute [local irreducible] Host.reduce Host.reduce2 Host.gather Host.scatter Host.reduceWindow

/-- Contents of the kernel program's buffers. -/
abbrev VK (F : FTy → Type) := Valuation Cert.KernelIdeal.τ Cert.KernelIdeal.sig (Elt F)
/-- Contents of the reference program's buffers. -/
abbrev VR (F : FTy → Type) := Valuation Cert.ReferenceIdeal.τ Cert.ReferenceIdeal.sig (Elt F)

/-- The buffer contents after an operation line, read at a reference, in ONE pass: each operation's result at its
    own result buffer is its function's value at the operands' contents, and at any other reference what was there;
    a three-operand concatenate's operands each at its own reference. -/
macro "results3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-! ## The kernel's forty operations around the scatter, cut before the concatenate -/

open Cert.KernelIdeal Cert.KernelIdeal.Gen in
/-- The first 35 of the kernel's 40 operations between @argmax and @take_along_axis: up to the concatenate's operands. -/
abbrev K5a : List (HloOp Cert.KernelIdeal.τ Cert.KernelIdeal.sig (Elt F)) :=
  ( StableHlo.unary main_v7 main_v8 (broadcastInDim S128x27x1 ![0, 1] bcast_S128x27_S128x27x1_0_1 : (⟨S128x27, .i32⟩ : BufTy).Contents (Elt F) → (⟨S128x27x1, .i32⟩ : BufTy).Contents (Elt F))
  :: StableHlo.unary main_v8 main_v9 (broadcastInDim S128x27x512 ![0, 1, 2] bcast_S128x27x1_S128x27x512_0_1_2 : (⟨S128x27x1, .i32⟩ : BufTy).Contents (Elt F) → (⟨S128x27x512, .i32⟩ : BufTy).Contents (Elt F))
  :: StableHlo.nullary main_v10 (iotaInDim S128 32 0)
  :: StableHlo.unary main_v10 main_v11 (broadcastInDim S128x1x1 ![0] bcast_S128_S128x1x1_0 : (⟨S128, .i32⟩ : BufTy).Contents (Elt F) → (⟨S128x1x1, .i32⟩ : BufTy).Contents (Elt F))
  :: StableHlo.nullary main_v12 (iotaInDim S27 32 0)
  :: StableHlo.unary main_v12 main_v13 (broadcastInDim S1x27x1 ![1] bcast_S27_S1x27x1_1 : (⟨S27, .i32⟩ : BufTy).Contents (Elt F) → (⟨S1x27x1, .i32⟩ : BufTy).Contents (Elt F))
  :: StableHlo.nullary main_v14 (iotaInDim S8192 32 0)
  :: StableHlo.unary main_v14 main_v15 (broadcastInDim S1x1x8192 ![2] bcast_S8192_S1x1x8192_2 : (⟨S8192, .i32⟩ : BufTy).Contents (Elt F) → (⟨S1x1x8192, .i32⟩ : BufTy).Contents (Elt F))
  :: StableHlo.unary main_v15 main_v16 (broadcastInDim S128x27x8192 ![0, 1, 2] bcast_S1x1x8192_S128x27x8192_0_1_2 : (⟨S1x1x8192, .i32⟩ : BufTy).Contents (Elt F) → (⟨S128x27x8192, .i32⟩ : BufTy).Contents (Elt F))
  :: StableHlo.nullary main_c_2 (constantI S_ 32 0#32)
  :: StableHlo.unary main_c_2 main_v17 (broadcastInDim S128x1x1 ![] bcast_S_S128x1x1 : (⟨S_, .i32⟩ : BufTy).Contents (Elt F) → (⟨S128x1x1, .i32⟩ : BufTy).Contents (Elt F))
  :: StableHlo.binary main_v11 main_v17 main_v18 (cmpi .slt : (⟨S128x1x1, .i32⟩ : BufTy).Contents (Elt F) → (⟨S128x1x1, .i32⟩ : BufTy).Contents (Elt F) → (⟨S128x1x1, .i1⟩ : BufTy).Contents (Elt F))
  :: StableHlo.nullary main_c_3 (constantI S_ 32 128#32)
  :: StableHlo.unary main_c_3 main_v19 (broadcastInDim S128x1x1 ![] bcast_S_S128x1x1 : (⟨S_, .i32⟩ : BufTy).Contents (Elt F) → (⟨S128x1x1, .i32⟩ : BufTy).Contents (Elt F))
  :: StableHlo.binary main_v11 main_v19 main_v20 (addi : (⟨S128x1x1, .i32⟩ : BufTy).Contents (Elt F) → (⟨S128x1x1, .i32⟩ : BufTy).Contents (Elt F) → (⟨S128x1x1, .i32⟩ : BufTy).Contents (Elt F))
  :: StableHlo.ternary main_v18 main_v20 main_v11 main_v21 (select : (⟨S128x1x1, .i1⟩ : BufTy).Contents (Elt F) → (⟨S128x1x1, .i32⟩ : BufTy).Contents (Elt F) → (⟨S128x1x1, .i32⟩ : BufTy).Contents (Elt F) → (⟨S128x1x1, .i32⟩ : BufTy).Contents (Elt F))
  :: StableHlo.nullary main_c_4 (constantI S_ 32 0#32)
  :: StableHlo.unary main_c_4 main_v22 (broadcastInDim S1x27x1 ![] bcast_S_S1x27x1 : (⟨S_, .i32⟩ : BufTy).Contents (Elt F) → (⟨S1x27x1, .i32⟩ : BufTy).Contents (Elt F))
  :: StableHlo.binary main_v13 main_v22 main_v23 (cmpi .slt : (⟨S1x27x1, .i32⟩ : BufTy).Contents (Elt F) → (⟨S1x27x1, .i32⟩ : BufTy).Contents (Elt F) → (⟨S1x27x1, .i1⟩ : BufTy).Contents (Elt F))
  :: StableHlo.nullary main_c_5 (constantI S_ 32 27#32)
  :: StableHlo.unary main_c_5 main_v24 (broadcastInDim S1x27x1 ![] bcast_S_S1x27x1 : (⟨S_, .i32⟩ : BufTy).Contents (Elt F) → (⟨S1x27x1, .i32⟩ : BufTy).Contents (Elt F))
  :: StableHlo.binary main_v13 main_v24 main_v25 (addi : (⟨S1x27x1, .i32⟩ : BufTy).Contents (Elt F) → (⟨S1x27x1, .i32⟩ : BufTy).Contents (Elt F) → (⟨S1x27x1, .i32⟩ : BufTy).Contents (Elt F))
  :: StableHlo.ternary main_v23 main_v25 main_v13 main_v26 (select : (⟨S1x27x1, .i1⟩ : BufTy).Contents (Elt F) → (⟨S1x27x1, .i32⟩ : BufTy).Contents (Elt F) → (⟨S1x27x1, .i32⟩ : BufTy).Contents (Elt F) → (⟨S1x27x1, .i32⟩ : BufTy).Contents (Elt F))
  :: StableHlo.nullary main_c_6 (constantI S_ 32 0#32)
  :: StableHlo.unary main_c_6 main_v27 (broadcastInDim S128x27x8192 ![] bcast_S_S128x27x8192 : (⟨S_, .i32⟩ : BufTy).Contents (Elt F) → (⟨S128x27x8192, .i32⟩ : BufTy).Contents (Elt F))
  :: StableHlo.binary main_v6 main_v27 main_v28 (cmpi .slt : (⟨S128x27x8192, .i32⟩ : BufTy).Contents (Elt F) → (⟨S128x27x8192, .i32⟩ : BufTy).Contents (Elt F) → (⟨S128x27x8192, .i1⟩ : BufTy).Contents (Elt F))
  :: StableHlo.nullary main_c_7 (constantI S_ 32 512#32)
  :: StableHlo.unary main_c_7 main_v29 (broadcastInDim S128x27x8192 ![] bcast_S_S128x27x8192 : (⟨S_, .i32⟩ : BufTy).Contents (Elt F) → (⟨S128x27x8192, .i32⟩ : BufTy).Contents (Elt F))
  :: StableHlo.binary main_v6 main_v29 main_v30 (addi : (⟨S128x27x8192, .i32⟩ : BufTy).Contents (Elt F) → (⟨S128x27x8192, .i32⟩ : BufTy).Contents (Elt F) → (⟨S128x27x8192, .i32⟩ : BufTy).Contents (Elt F))
  :: StableHlo.ternary main_v28 main_v30 main_v6 main_v31 (select : (⟨S128x27x8192, .i1⟩ : BufTy).Contents (Elt F) → (⟨S128x27x8192, .i32⟩ : BufTy).Contents (Elt F) → (⟨S128x27x8192, .i32⟩ : BufTy).Contents (Elt F) → (⟨S128x27x8192, .i32⟩ : BufTy).Contents (Elt F))
  :: StableHlo.unary main_v21 main_v32 (broadcastInDim S128x27x8192 ![0, 1, 2] bcast_S128x1x1_S128x27x8192_0_1_2 : (⟨S128x1x1, .i32⟩ : BufTy).Contents (Elt F) → (⟨S128x27x8192, .i32⟩ : BufTy).Contents (Elt F))
  :: StableHlo.unary main_v26 main_v33 (broadcastInDim S128x27x8192 ![0, 1, 2] bcast_S1x27x1_S128x27x8192_0_1_2 : (⟨S1x27x1, .i32⟩ : BufTy).Contents (Elt F) → (⟨S128x27x8192, .i32⟩ : BufTy).Contents (Elt F))
  :: StableHlo.unary main_v32 main_v34 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F))
  :: StableHlo.unary main_v33 main_v35 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F))
  :: StableHlo.unary main_v31 main_v36 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F))
  :: [] )

open Cert.KernelIdeal Cert.KernelIdeal.Gen in
/-- The last 5: the concatenate, the scatter, the two argument broadcasts and the unit axis on the scattered indices. -/
abbrev K5b : List (HloOp Cert.KernelIdeal.τ Cert.KernelIdeal.sig (Elt F)) :=
  ( StableHlo.nary ![main_v34, main_v35, main_v36] main_v37 (fun u => concatenate S128x27x8192x3 3 [⟨S128x27x8192x1, u 0⟩, ⟨S128x27x8192x1, u 1⟩, ⟨S128x27x8192x1, u 2⟩] concatenates_S128x27x8192x1_S128x27x8192x1_S128x27x8192x1_S128x27x8192x3_d3)
  :: StableHlo.ternary main_v9 main_v37 main_v16 main_v38 ((fun x i u => Host.scatter scatter_S128x27x512_S128x27x8192x3_S128x27x8192_n_012_012_3 (fun _ b => b) x i u) : (⟨S128x27x512, .i32⟩ : BufTy).Contents (Elt F) → (⟨S128x27x8192x3, .i32⟩ : BufTy).Contents (Elt F) → (⟨S128x27x8192, .i32⟩ : BufTy).Contents (Elt F) → (⟨S128x27x512, .i32⟩ : BufTy).Contents (Elt F))
  :: StableHlo.unary main_arg1 main_v39 (broadcastInDim S128x27x3 ![0, 1, 2] bcast_S1x27x3_S128x27x3_0_1_2 : (⟨S1x27x3, .f32⟩ : BufTy).Contents (Elt F) → (⟨S128x27x3, .f32⟩ : BufTy).Contents (Elt F))
  :: StableHlo.unary main_arg0 main_v40 (broadcastInDim S128x1x8192x3 ![0, 2, 3] bcast_S128x8192x3_S128x1x8192x3_0_2_3 : (⟨S128x8192x3, .f32⟩ : BufTy).Contents (Elt F) → (⟨S128x1x8192x3, .f32⟩ : BufTy).Contents (Elt F))
  :: StableHlo.unary main_v38 main_v41 (broadcastInDim S128x27x512x1 ![0, 1, 2] bcast_S128x27x512_S128x27x512x1_0_1_2 : (⟨S128x27x512, .i32⟩ : BufTy).Contents (Elt F) → (⟨S128x27x512x1, .i32⟩ : BufTy).Contents (Elt F))
  :: [] )

/-- The forty are those 35 followed by those 5. -/
theorem hostOps1_5_split : (Cert.KernelIdeal.Gen.hostOps1_5 : List (HloOp Cert.KernelIdeal.τ Cert.KernelIdeal.sig (Elt F))) = K5a ++ K5b := rfl

/-! ## Stage 1: everything before the concatenate

The kernel's compare against zero, then on both sides @cumsum, the subtraction, @_where, @argmax and the 35
operations that prepare the scatter's operands. The kernel's recomputed mask is the reference's; its running count
is the reference's because its 32-bit mask is the reference's mask widened. -/

set_option maxHeartbeats 1000000 in
/-- The arg-max broadcast to the 512 slots: the scatter's operand. -/
theorem stage1_v9 (UK : VK F) (UR : VR F) (hz : UK (Proc.devRef .tc Cert.KernelIdeal.main_v0) = extui 32 (UR (Proc.devRef .tc Cert.ReferenceIdeal.main_v15)) Cert.ReferenceIdeal.Facts₀.natLt_1_32) :
    (after K5a (after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1 UK)))))) (Proc.devRef .tc Cert.KernelIdeal.main_v9)
      = (after Cert.ReferenceIdeal.Hand.tailR5 (after Cert.ReferenceIdeal.Hand.tailR4 (after Cert.ReferenceIdeal.Hand.tailR3 (after Cert.ReferenceIdeal.Hand.tailR2 (after Cert.ReferenceIdeal.Hand.tailR1 UR))))) (Proc.devRef .tc Cert.ReferenceIdeal.main_v22) := by
  results3
  rw [hz, sgt_zero_extui]
  rfl

set_option maxHeartbeats 1000000 in
/-- The point index along the last axis: the scatter's updates. -/
theorem stage1_v16 (UK : VK F) (UR : VR F) :
    (after K5a (after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1 UK)))))) (Proc.devRef .tc Cert.KernelIdeal.main_v16)
      = (after Cert.ReferenceIdeal.Hand.tailR5 (after Cert.ReferenceIdeal.Hand.tailR4 (after Cert.ReferenceIdeal.Hand.tailR3 (after Cert.ReferenceIdeal.Hand.tailR2 (after Cert.ReferenceIdeal.Hand.tailR1 UR))))) (Proc.devRef .tc Cert.ReferenceIdeal.main_v29) := by
  results3

set_option maxHeartbeats 1000000 in
/-- The batch coordinate plane of the scatter's indices. -/
theorem stage1_v34 (UK : VK F) (UR : VR F) :
    (after K5a (after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1 UK)))))) (Proc.devRef .tc Cert.KernelIdeal.main_v34)
      = (after Cert.ReferenceIdeal.Hand.tailR5 (after Cert.ReferenceIdeal.Hand.tailR4 (after Cert.ReferenceIdeal.Hand.tailR3 (after Cert.ReferenceIdeal.Hand.tailR2 (after Cert.ReferenceIdeal.Hand.tailR1 UR))))) (Proc.devRef .tc Cert.ReferenceIdeal.main_v47) := by
  results3

set_option maxHeartbeats 1000000 in
/-- The centre coordinate plane of the scatter's indices. -/
theorem stage1_v35 (UK : VK F) (UR : VR F) :
    (after K5a (after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1 UK)))))) (Proc.devRef .tc Cert.KernelIdeal.main_v35)
      = (after Cert.ReferenceIdeal.Hand.tailR5 (after Cert.ReferenceIdeal.Hand.tailR4 (after Cert.ReferenceIdeal.Hand.tailR3 (after Cert.ReferenceIdeal.Hand.tailR2 (after Cert.ReferenceIdeal.Hand.tailR1 UR))))) (Proc.devRef .tc Cert.ReferenceIdeal.main_v48) := by
  results3

set_option maxHeartbeats 1000000 in
/-- The slot coordinate plane of the scatter's indices: each point's rank among the ball's members, or 512. -/
theorem stage1_v36 (UK : VK F) (UR : VR F) (hz : UK (Proc.devRef .tc Cert.KernelIdeal.main_v0) = extui 32 (UR (Proc.devRef .tc Cert.ReferenceIdeal.main_v15)) Cert.ReferenceIdeal.Facts₀.natLt_1_32) :
    (after K5a (after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1 UK)))))) (Proc.devRef .tc Cert.KernelIdeal.main_v36)
      = (after Cert.ReferenceIdeal.Hand.tailR5 (after Cert.ReferenceIdeal.Hand.tailR4 (after Cert.ReferenceIdeal.Hand.tailR3 (after Cert.ReferenceIdeal.Hand.tailR2 (after Cert.ReferenceIdeal.Hand.tailR1 UR))))) (Proc.devRef .tc Cert.ReferenceIdeal.main_v49) := by
  results3
  rw [hz, sgt_zero_extui]
  rfl

/-! The argument arrays, and the reference's broadcast centres, are written by none of these operations. -/

set_option maxHeartbeats 400000 in
theorem frame1_K_arg0 (UK : VK F) :
    (after K5a (after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1 UK)))))) (Proc.devRef .tc Cert.KernelIdeal.main_arg0) = UK (Proc.devRef .tc Cert.KernelIdeal.main_arg0) := by
  results3

set_option maxHeartbeats 400000 in
theorem frame1_K_arg1 (UK : VK F) :
    (after K5a (after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1 UK)))))) (Proc.devRef .tc Cert.KernelIdeal.main_arg1) = UK (Proc.devRef .tc Cert.KernelIdeal.main_arg1) := by
  results3

set_option maxHeartbeats 400000 in
theorem frame1_R_arg0 (UR : VR F) :
    (after Cert.ReferenceIdeal.Hand.tailR5 (after Cert.ReferenceIdeal.Hand.tailR4 (after Cert.ReferenceIdeal.Hand.tailR3 (after Cert.ReferenceIdeal.Hand.tailR2 (after Cert.ReferenceIdeal.Hand.tailR1 UR))))) (Proc.devRef .tc Cert.ReferenceIdeal.main_arg0) = UR (Proc.devRef .tc Cert.ReferenceIdeal.main_arg0) := by
  results3

set_option maxHeartbeats 400000 in
theorem frame1_R_arg1 (UR : VR F) :
    (after Cert.ReferenceIdeal.Hand.tailR5 (after Cert.ReferenceIdeal.Hand.tailR4 (after Cert.ReferenceIdeal.Hand.tailR3 (after Cert.ReferenceIdeal.Hand.tailR2 (after Cert.ReferenceIdeal.Hand.tailR1 UR))))) (Proc.devRef .tc Cert.ReferenceIdeal.main_arg1) = UR (Proc.devRef .tc Cert.ReferenceIdeal.main_arg1) := by
  results3

set_option maxHeartbeats 400000 in
theorem frame1_R_v0 (UR : VR F) :
    (after Cert.ReferenceIdeal.Hand.tailR5 (after Cert.ReferenceIdeal.Hand.tailR4 (after Cert.ReferenceIdeal.Hand.tailR3 (after Cert.ReferenceIdeal.Hand.tailR2 (after Cert.ReferenceIdeal.Hand.tailR1 UR))))) (Proc.devRef .tc Cert.ReferenceIdeal.main_v0) = UR (Proc.devRef .tc Cert.ReferenceIdeal.main_v0) := by
  results3

/-! ## Stage 2: the concatenate, the scatter, and the two argument broadcasts -/

set_option maxHeartbeats 1000000 in
/-- The scattered point indices with a trailing unit axis, from equal operands. -/
theorem stage2_v41 (UK : VK F) (UR : VR F)
    (h9 : UK (Proc.devRef .tc Cert.KernelIdeal.main_v9) = UR (Proc.devRef .tc Cert.ReferenceIdeal.main_v22)) (h16 : UK (Proc.devRef .tc Cert.KernelIdeal.main_v16) = UR (Proc.devRef .tc Cert.ReferenceIdeal.main_v29))
    (h34 : UK (Proc.devRef .tc Cert.KernelIdeal.main_v34) = UR (Proc.devRef .tc Cert.ReferenceIdeal.main_v47)) (h35 : UK (Proc.devRef .tc Cert.KernelIdeal.main_v35) = UR (Proc.devRef .tc Cert.ReferenceIdeal.main_v48))
    (h36 : UK (Proc.devRef .tc Cert.KernelIdeal.main_v36) = UR (Proc.devRef .tc Cert.ReferenceIdeal.main_v49)) :
    (after K5b UK) (Proc.devRef .tc Cert.KernelIdeal.main_v41) = (after Cert.ReferenceIdeal.Hand.tailR6 UR) (Proc.devRef .tc Cert.ReferenceIdeal.main_v53) := by
  results3
  rw [h9, h16, h34, h35, h36]
  rfl

set_option maxHeartbeats 400000 in
/-- The points with a unit centre axis. -/
theorem stage2_v40 (UK : VK F) (UR : VR F) (hx : UK (Proc.devRef .tc Cert.KernelIdeal.main_arg0) = UR (Proc.devRef .tc Cert.ReferenceIdeal.main_arg0)) :
    (after K5b UK) (Proc.devRef .tc Cert.KernelIdeal.main_v40) = (after Cert.ReferenceIdeal.Hand.tailR6 UR) (Proc.devRef .tc Cert.ReferenceIdeal.main_v52) := by
  results3
  rw [hx]

set_option maxHeartbeats 400000 in
/-- The centres over the batch: the kernel computes here what the reference computed at its first operation. -/
theorem stage2_v39 (UK : VK F) (UR : VR F) (hc : UK (Proc.devRef .tc Cert.KernelIdeal.main_arg1) = UR (Proc.devRef .tc Cert.ReferenceIdeal.main_arg1))
    (hb : UR (Proc.devRef .tc Cert.ReferenceIdeal.main_v0) = broadcastInDim Cert.ReferenceIdeal.S128x27x3 ![0, 1, 2] Cert.ReferenceIdeal.Facts₀.bcast_S1x27x3_S128x27x3_0_1_2 (UR (Proc.devRef .tc Cert.ReferenceIdeal.main_arg1))) :
    (after K5b UK) (Proc.devRef .tc Cert.KernelIdeal.main_v39) = (after Cert.ReferenceIdeal.Hand.tailR6 UR) (Proc.devRef .tc Cert.ReferenceIdeal.main_v0) := by
  results3
  rw [hc, hb]

/-! ## Stage 3: @take_along_axis, the centres subtracted, the reshape -/

set_option maxHeartbeats 1000000 in
theorem stage3 (UK : VK F) (UR : VR F)
    (h41 : UK (Proc.devRef .tc Cert.KernelIdeal.main_v41) = UR (Proc.devRef .tc Cert.ReferenceIdeal.main_v53)) (h40 : UK (Proc.devRef .tc Cert.KernelIdeal.main_v40) = UR (Proc.devRef .tc Cert.ReferenceIdeal.main_v52))
    (h39 : UK (Proc.devRef .tc Cert.KernelIdeal.main_v39) = UR (Proc.devRef .tc Cert.ReferenceIdeal.main_v0)) :
    (after Cert.KernelIdeal.Gen.hostOps1_7 (after Cert.KernelIdeal.Gen.hostOps1_6 UK)) (Proc.devRef .tc Cert.KernelIdeal.main_v46) = (after Cert.ReferenceIdeal.Hand.tailR8 (after Cert.ReferenceIdeal.Hand.tailR7 UR)) (Proc.devRef .tc Cert.ReferenceIdeal.main_v58) := by
  results3
  rw [h41, h40, h39]
  rfl

/-! ## The two lines -/

/-- The kernel's eight host stretches in a row, with the forty cut before the concatenate. -/
theorem flatten_eq :
    (List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7] : List (HloOp Cert.KernelIdeal.τ Cert.KernelIdeal.sig (Elt F)))
      = Cert.KernelIdeal.Gen.hostOps1 ++ (Cert.KernelIdeal.Gen.hostOps1_1 ++ (Cert.KernelIdeal.Gen.hostOps1_2 ++ (Cert.KernelIdeal.Gen.hostOps1_3 ++ (Cert.KernelIdeal.Gen.hostOps1_4 ++ (K5a ++ (K5b ++ (Cert.KernelIdeal.Gen.hostOps1_6 ++ Cert.KernelIdeal.Gen.hostOps1_7))))))) := by
  simp only [List.flatten_cons, List.flatten_nil, List.append_nil, hostOps1_5_split, List.append_assoc]

set_option maxHeartbeats 1000000 in
/-- From contents that correspond — the kernel's 32-bit mask the reference's one-bit mask widened, the two argument
    arrays equal, the reference's broadcast centres as its first operation left them — the kernel's 85 host
    operations and the reference's 82 leave the same result: stage 1 gives the scatter's five operands equal and
    carries the arguments across, stage 2 the three arrays @take_along_axis and the subtraction read, stage 3 the result. -/
theorem tail_eq
    (UK : Valuation Cert.KernelIdeal.τ Cert.KernelIdeal.sig (Elt F)) (UR : Valuation Cert.ReferenceIdeal.τ Cert.ReferenceIdeal.sig (Elt F))
    (hz : UK (Proc.devRef .tc Cert.KernelIdeal.main_v0) = extui 32 (UR (Proc.devRef .tc Cert.ReferenceIdeal.main_v15)) Cert.ReferenceIdeal.Facts₀.natLt_1_32)
    (hx : UK (Proc.devRef .tc Cert.KernelIdeal.main_arg0) = UR (Proc.devRef .tc Cert.ReferenceIdeal.main_arg0))
    (hc : UK (Proc.devRef .tc Cert.KernelIdeal.main_arg1) = UR (Proc.devRef .tc Cert.ReferenceIdeal.main_arg1))
    (hb : UR (Proc.devRef .tc Cert.ReferenceIdeal.main_v0) = broadcastInDim Cert.ReferenceIdeal.S128x27x3 ![0, 1, 2] Cert.ReferenceIdeal.Facts₀.bcast_S1x27x3_S128x27x3_0_1_2 (UR (Proc.devRef .tc Cert.ReferenceIdeal.main_arg1))) :
    StableHlo.after (List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7]) UK (Proc.devRef .tc Cert.KernelIdeal.main_v46)
      = StableHlo.after Cert.ReferenceIdeal.Hand.tailR UR (Proc.devRef .tc Cert.ReferenceIdeal.main_v58) := by
  rw [flatten_eq]
  simp only [Cert.ReferenceIdeal.Hand.tailR, after_app]
  refine stage3 _ _ (stage2_v41 _ _ ?_ ?_ ?_ ?_ ?_) (stage2_v40 _ _ ?_) (stage2_v39 _ _ ?_ ?_)
  · exact stage1_v9 UK UR hz
  · exact stage1_v16 UK UR
  · exact stage1_v34 UK UR
  · exact stage1_v35 UK UR
  · exact stage1_v36 UK UR hz
  · exact (frame1_K_arg0 UK).trans (hx.trans (frame1_R_arg0 UR).symm)
  · exact (frame1_K_arg1 UK).trans (hc.trans (frame1_R_arg1 UR).symm)
  · rw [frame1_R_v0, frame1_R_arg1]
    exact hb

end Cert.Hand

end
-- ==== Proof.Bridge.lean ====
/-
  The two idealized programs end with the same result.

  The kernel program's result is what its host lines compute from the region's exit contents: the membership
  words in the region's result array, the two argument arrays as launched. The reference's result is what the same
  chain of host lines computes from the contents after its first twenty lines: the membership bits, the argument
  arrays, the centres repeated per batch. The chains agree whenever those contents agree (`tail_eq`), and they
  do: the region's words are the 32-bit widening of the bits (`final2`, `maskR_eq`: both are the comparison
  |x|^2 + |c|^2 - 2 <c, x> < r^2 read index by index over the same argument arrays).
-/
import proofs.«164438_j40630390620888_1_alg».proof.Proof.KValue
import proofs.«164438_j40630390620888_1_alg».proof.Proof.RefRun
import proofs.«164438_j40630390620888_1_alg».proof.Proof.RefMaskAt
import proofs.«164438_j40630390620888_1_alg».proof.Proof.TailEq

noncomputable section

namespace Cert.Hand

open Idealize.ShloMosaic Idealize.ShloMosaic.TcCoe Idealize.SL.Sem

/-- The membership words are the widened membership bits. -/
theorem maskWords_eq (x : Cert.KernelIdeal.S128x8192x3.Idx → EReal) (cc : Cert.KernelIdeal.S1x27x3.Idx → EReal) :
    Cert.KernelIdeal.Hand.maskWords x cc = extui 32 (Cert.Spec.mask1 x cc) Cert.ReferenceIdeal.Facts₀.natLt_1_32 := rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The region's exit contents on core c. -/
abbrev exitK (c : Dev Cert.KernelIdeal.nD) : Valuation Cert.KernelIdeal.τ Cert.KernelIdeal.sig (Elt Ideal) :=
  Pipeline.withArrays (Cert.KernelIdeal.cfgs 0).spec c (Cert.KernelIdeal.Hand.V0 m c)
    fun w => (Cert.KernelIdeal.Hand.dats m 0 c).arrAt w (Cert.KernelIdeal.cfgs 0).N

theorem exitK_v0 (c : Dev Cert.KernelIdeal.nD) :
    exitK m c (Proc.devRef .tc Cert.KernelIdeal.main_v0)
      = Cert.KernelIdeal.Hand.maskWords (m ((c : Thread Cert.KernelIdeal.nD Cert.KernelIdeal.τ).loc Cert.KernelIdeal.main_arg0)) (m ((c : Thread Cert.KernelIdeal.nD Cert.KernelIdeal.τ).loc Cert.KernelIdeal.main_arg1)) :=
  (Pipeline.withArrays_arr Cert.KernelIdeal.spec0 Cert.KernelIdeal.Gen.launch0.win.arr_inj c _ _ 2).trans (Cert.KernelIdeal.Hand.final2 m c)

theorem exitK_arg0 (c : Dev Cert.KernelIdeal.nD) :
    exitK m c (Proc.devRef .tc Cert.KernelIdeal.main_arg0) = m ((c : Thread Cert.KernelIdeal.nD Cert.KernelIdeal.τ).loc Cert.KernelIdeal.main_arg0) :=
  (Pipeline.withArrays_arr Cert.KernelIdeal.spec0 Cert.KernelIdeal.Gen.launch0.win.arr_inj c _ _ 0).trans
    (((Cert.KernelIdeal.Hand.dats m 0 c).arrAt_in 0 rfl _).trans ((Cert.KernelIdeal.Hand.A_eq m c 0).trans (Cert.KernelIdeal.Hand.V_main_arg0 m c)))

theorem exitK_arg1 (c : Dev Cert.KernelIdeal.nD) :
    exitK m c (Proc.devRef .tc Cert.KernelIdeal.main_arg1) = m ((c : Thread Cert.KernelIdeal.nD Cert.KernelIdeal.τ).loc Cert.KernelIdeal.main_arg1) :=
  (Pipeline.withArrays_arr Cert.KernelIdeal.spec0 Cert.KernelIdeal.Gen.launch0.win.arr_inj c _ _ 1).trans
    (((Cert.KernelIdeal.Hand.dats m 0 c).arrAt_in 1 rfl _).trans ((Cert.KernelIdeal.Hand.A_eq m c 1).trans (Cert.KernelIdeal.Hand.V_main_arg1 m c)))

/-- No line of the reference writes an argument array. -/
theorem ref_arg0 (W : Valuation Cert.ReferenceIdeal.τ Cert.ReferenceIdeal.sig (Elt Ideal)) :
    StableHlo.after (Cert.ReferenceIdeal.Hand.frontR ++ Cert.ReferenceIdeal.Hand.tailR) W (Proc.devRef .tc Cert.ReferenceIdeal.main_arg0)
      = W (Proc.devRef .tc Cert.ReferenceIdeal.main_arg0) := by
  rw [StableHlo.after_append]
  exact (Cert.ReferenceIdeal.Hand.tail_arg0 _).trans (Cert.ReferenceIdeal.Hand.front_arg0 _)
theorem ref_arg1 (W : Valuation Cert.ReferenceIdeal.τ Cert.ReferenceIdeal.sig (Elt Ideal)) :
    StableHlo.after (Cert.ReferenceIdeal.Hand.frontR ++ Cert.ReferenceIdeal.Hand.tailR) W (Proc.devRef .tc Cert.ReferenceIdeal.main_arg1)
      = W (Proc.devRef .tc Cert.ReferenceIdeal.main_arg1) := by
  rw [StableHlo.after_append]
  exact (Cert.ReferenceIdeal.Hand.tail_arg1 _).trans (Cert.ReferenceIdeal.Hand.front_arg1 _)

/-- From memories that agree on the two arguments, the reference's result buffer ends at what the kernel program's
    host lines leave in its result buffer. -/
theorem result_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (c : Dev Cert.KernelIdeal.nD) :
    StableHlo.after (Cert.ReferenceIdeal.Hand.frontR ++ Cert.ReferenceIdeal.Hand.tailR) (StableHlo.launchContents m' c) (Proc.devRef .tc Cert.ReferenceIdeal.main_v58)
      = Pipeline.afterTail₀ Cert.KernelIdeal.cfgs (Cert.KernelIdeal.Hand.dats m) 0 (Cert.KernelIdeal.Hand.V0 m) Cert.KernelIdeal.Hand.tailOps c Cert.KernelIdeal.main_v46 := by
  rw [StableHlo.after_append]
  unfold Pipeline.afterTail₀
  refine (tail_eq (exitK m c) (StableHlo.after Cert.ReferenceIdeal.Hand.frontR (StableHlo.launchContents m' c)) ?_ ?_ ?_ ?_).symm
  · rw [exitK_v0, Cert.ReferenceIdeal.Hand.front_mask, Cert.ReferenceIdeal.Hand.maskR_eq, maskWords_eq]
    rw [← (hagree c).1, ← (hagree c).2]
  · rw [exitK_arg0, Cert.ReferenceIdeal.Hand.front_arg0]
    exact (hagree c).1.symm
  · rw [exitK_arg1, Cert.ReferenceIdeal.Hand.front_arg1]
    exact (hagree c).2.symm
  · rw [Cert.ReferenceIdeal.Hand.front_v0, Cert.ReferenceIdeal.Hand.front_arg1]

end Cert.Hand

end
-- ==== Proof.lean ====
/-
  The certificate of the ball-query grouping kernel against its jnp reference, over the extended reals.

  Both programs compute, for 128 batches of 8192 points and 27 ball centres, which points lie within the radius of
  each centre (|x|^2 + |c|^2 - 2 <c, x> < r^2, the three terms sums over the three coordinates), then — with the same
  host lines — the first 512 members of each ball in index order (a cumulative count, a slot selection, an arg-max
  for the fallback index, a scatter), gather those points and recentre them. The kernel program computes the
  membership test in one kernel region, a batch per grid point, as 32-bit words; the reference computes it on the host
  with a batched dot product, as bits.

  * The frames of the two kernel programs (the word-level one and its idealization: the same text read at the two
    instances) are the region's launch, with the body run once on symbolic blocks, continued by the host lines
    (Proof/KFrame.lean and its word-level copy).
  * The reference's frame is its run as one straight line of host operations (Proof/RefRun.lean).
  * The idealization rewrote nothing, so `preserves` has no conjunct.
  * Equal results: the region's result array is the widened membership test of the argument arrays
    (Proof/KValue.lean over Proof/KPayAt.lean), the reference's first twenty lines compute the same test
    (Proof/RefMaskAt.lean), and the host lines after that are the same function on both sides (Proof/TailEq.lean);
    Proof/Bridge.lean joins them.
-/
import proofs.«164438_j40630390620888_1_alg».proof.Defs
import proofs.«164438_j40630390620888_1_alg».proof.Proof.Gen.Kernel
import proofs.«164438_j40630390620888_1_alg».proof.Proof.Gen.KernelIdeal
import proofs.«164438_j40630390620888_1_alg».proof.Proof.Gen.ReferenceIdeal
import proofs.«164438_j40630390620888_1_alg».proof.Proof.Gen.Pre_finite_inputs
import proofs.«164438_j40630390620888_1_alg».proof.Proof.KFrame
import proofs.«164438_j40630390620888_1_alg».proof.Proof.KFrameBits
import proofs.«164438_j40630390620888_1_alg».proof.Proof.RefRun
import proofs.«164438_j40630390620888_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ

/-- The reference's run with the result dropped: no host line writes an argument. -/
theorem frame_ri : Cert.frame_ReferenceIdeal := fun m ρ _ =>
  (θ_run Cert.ReferenceIdeal.defs _ _).mono (fun _ h c =>
    ⟨(h c Cert.ReferenceIdeal.main_arg0).trans (Cert.Hand.ref_arg0 _),
     (h c Cert.ReferenceIdeal.main_arg1).trans (Cert.Hand.ref_arg1 _)⟩)
    (Cert.ReferenceIdeal.Hand.run (F := Ideal) m ρ)

/-- Both idealized programs run, and end with the same result: the kernel program's own result term is the
    witness, and the reference's run ends at it (`Cert.Hand.result_eq`). -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) Cert.KernelIdeal.Hand.tailOps c Cert.KernelIdeal.main_v46, ?_, ?_⟩
  · exact (θ_run Cert.KernelIdeal.defs _ _).mono (fun _ h c =>
      ⟨Cert.KernelIdeal.Hand.result_at m h c, Cert.KernelIdeal.Hand.arg0_kept m h c, Cert.KernelIdeal.Hand.arg1_kept m h c⟩)
      (Cert.KernelIdeal.Hand.run_main (F := Ideal) m ρ)
  · exact (θ_run Cert.ReferenceIdeal.defs _ _).mono (fun _ h c =>
      ⟨(h c Cert.ReferenceIdeal.main_v58).trans (Cert.Hand.result_eq m m' hagree c),
       (h c Cert.ReferenceIdeal.main_arg0).trans (Cert.Hand.ref_arg0 _),
       (h c Cert.ReferenceIdeal.main_arg1).trans (Cert.Hand.ref_arg1 _)⟩)
      (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
